-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x32 : Shape := ⟨4, ![8, 32, 32, 32]⟩
abbrev S64x3x3x32 : Shape := ⟨4, ![64, 3, 3, 32]⟩
abbrev S_ : Shape := ⟨0, ![]⟩

class Facts : Prop where
  bcast_S_S8x32x32x32 : S_.BroadcastsInDim S8x32x32x32 (![] : Fin 0 → Fin S8x32x32x32.rank)
  reducesTo_S8x32x32x32_S_d0_1_2_3 : S8x32x32x32.ReducesTo [0, 1, 2, 3] S_
  h_S_ : 0 < S_.numel
  bcast_S_S64x3x3x32 : S_.BroadcastsInDim S64x3x3x32 (![] : Fin 0 → Fin S64x3x3x32.rank)
  reducesTo_S64x3x3x32_S_d0_1_2_3 : S64x3x3x32.ReducesTo [0, 1, 2, 3] S_

variable [Facts]

def fn {F : FTy → Type} [FloatOps F] (main_arg0 : FVec F S8x32x32x32 .f32) (main_arg1 : FVec F S64x3x3x32 .f32) : IVec S_ 1 :=
  let main_v0 : FVec F S8x32x32x32 .f32 := Host.absf main_arg0
  let main_cst : FVec F S_ .f32 := constant S_ .f32 0x7F800000#32
  let main_v1 : FVec F S8x32x32x32 .f32 := broadcastInDim S8x32x32x32 ![] bcast_S_S8x32x32x32 main_cst
  let main_v2 : IVec S8x32x32x32 1 := cmpf .olt main_v0 main_v1
  let main_c : IVec S_ 1 := constantI S_ 1 1#1
  let main_v3 : IVec S_ 1 := (fun x v => Host.reduce IntOp.andi x v reducesTo_S8x32x32x32_S_d0_1_2_3 h_S_) main_v2 main_c
  let main_v4 : FVec F S64x3x3x32 .f32 := Host.absf main_arg1
  let main_cst_0 : FVec F S_ .f32 := constant S_ .f32 0x7F800000#32
  let main_v5 : FVec F S64x3x3x32 .f32 := broadcastInDim S64x3x3x32 ![] bcast_S_S64x3x3x32 main_cst_0
  let main_v6 : IVec S64x3x3x32 1 := cmpf .olt main_v4 main_v5
  let main_c_1 : IVec S_ 1 := constantI S_ 1 1#1
  let main_v7 : IVec S_ 1 := (fun x v => Host.reduce IntOp.andi x v reducesTo_S64x3x3x32_S_d0_1_2_3 h_S_) main_v6 main_c_1
  let main_v8 : IVec S_ 1 := andi main_v3 main_v7
  main_v8
-- ==== Kernel.lean ====
abbrev S8x32x32x32 : Shape := ⟨4, ![8, 32, 32, 32]⟩
abbrev S64x3x3x32 : Shape := ⟨4, ![64, 3, 3, 32]⟩
abbrev S_ : Shape := ⟨0, ![]⟩
abbrev S8x34x34x32 : Shape := ⟨4, ![8, 34, 34, 32]⟩
abbrev S8x32x32x1x32 : Shape := ⟨5, ![8, 32, 32, 1, 32]⟩
abbrev S8x32x32x9x32 : Shape := ⟨5, ![8, 32, 32, 9, 32]⟩
abbrev S8x32x32x288 : Shape := ⟨4, ![8, 32, 32, 288]⟩
abbrev S64x288 : Shape := ⟨2, ![64, 288]⟩
abbrev S8192x288 : Shape := ⟨2, ![8192, 288]⟩
abbrev S8192x384 : Shape := ⟨2, ![8192, 384]⟩
abbrev S64x384 : Shape := ⟨2, ![64, 384]⟩
abbrev S8192x64 : Shape := ⟨2, ![8192, 64]⟩
abbrev S2048x384 : Shape := ⟨2, ![2048, 384]⟩
abbrev S2048x64 : Shape := ⟨2, ![2048, 64]⟩
abbrev S1x384 : Shape := ⟨2, ![1, 384]⟩
abbrev S2048 : Shape := ⟨1, ![2048]⟩
abbrev S2048x1 : Shape := ⟨2, ![2048, 1]⟩
abbrev S8x32x32x64 : Shape := ⟨4, ![8, 32, 32, 64]⟩

abbrev nBuf : Space → Nat
  | .hbm => 35
  | .vmem => 5
  | .smem => 0
  | _ => 0

abbrev bufTy : (tb : Table) → Fin (tcTables nBuf tb) → BufTy
  | .hbm, ⟨0, _⟩ => ⟨S8x32x32x32, .f32⟩
  | .hbm, ⟨1, _⟩ => ⟨S64x3x3x32, .f32⟩
  | .hbm, ⟨2, _⟩ => ⟨S_, .i32⟩
  | .hbm, ⟨3, _⟩ => ⟨S_, .f32⟩
  | .hbm, ⟨4, _⟩ => ⟨S8x34x34x32, .f32⟩
  | .hbm, ⟨5, _⟩ => ⟨S8x32x32x32, .f32⟩
  | .hbm, ⟨6, _⟩ => ⟨S8x32x32x32, .f32⟩
  | .hbm, ⟨7, _⟩ => ⟨S8x32x32x32, .f32⟩
  | .hbm, ⟨8, _⟩ => ⟨S8x32x32x32, .f32⟩
  | .hbm, ⟨9, _⟩ => ⟨S8x32x32x32, .f32⟩
  | .hbm, ⟨10, _⟩ => ⟨S8x32x32x32, .f32⟩
  | .hbm, ⟨11, _⟩ => ⟨S8x32x32x32, .f32⟩
  | .hbm, ⟨12, _⟩ => ⟨S8x32x32x32, .f32⟩
  | .hbm, ⟨13, _⟩ => ⟨S8x32x32x32, .f32⟩
  | .hbm, ⟨14, _⟩ => ⟨S8x32x32x1x32, .f32⟩
  | .hbm, ⟨15, _⟩ => ⟨S8x32x32x1x32, .f32⟩
  | .hbm, ⟨16, _⟩ => ⟨S8x32x32x1x32, .f32⟩
  | .hbm, ⟨17, _⟩ => ⟨S8x32x32x1x32, .f32⟩
  | .hbm, ⟨18, _⟩ => ⟨S8x32x32x1x32, .f32⟩
  | .hbm, ⟨19, _⟩ => ⟨S8x32x32x1x32, .f32⟩
  | .hbm, ⟨20, _⟩ => ⟨S8x32x32x1x32, .f32⟩
  | .hbm, ⟨21, _⟩ => ⟨S8x32x32x1x32, .f32⟩
  | .hbm, ⟨22, _⟩ => ⟨S8x32x32x1x32, .f32⟩
  | .hbm, ⟨23, _⟩ => ⟨S8x32x32x9x32, .f32⟩
  | .hbm, ⟨24, _⟩ => ⟨S8x32x32x288, .f32⟩
  | .hbm, ⟨25, _⟩ => ⟨S64x288, .f32⟩
  | .hbm, ⟨26, _⟩ => ⟨S8192x288, .f32⟩
  | .hbm, ⟨27, _⟩ => ⟨S_, .i32⟩
  | .hbm, ⟨28, _⟩ => ⟨S_, .f32⟩
  | .hbm, ⟨29, _⟩ => ⟨S8192x384, .f32⟩
  | .hbm, ⟨30, _⟩ => ⟨S_, .i32⟩
  | .hbm, ⟨31, _⟩ => ⟨S_, .f32⟩
  | .hbm, ⟨32, _⟩ => ⟨S64x384, .f32⟩
  | .hbm, ⟨33, _⟩ => ⟨S8192x64, .f32⟩
  | .hbm, ⟨34, _⟩ => ⟨S8x32x32x64, .f32⟩
  | .local _ .vmem, ⟨0, _⟩ => ⟨S2048x384, .f32⟩
  | .local _ .vmem, ⟨1, _⟩ => ⟨S2048x384, .f32⟩
  | .local _ .vmem, ⟨2, _⟩ => ⟨S64x384, .f32⟩
  | .local _ .vmem, ⟨3, _⟩ => ⟨S2048x64, .f32⟩
  | .local _ .vmem, ⟨4, _⟩ => ⟨S2048x64, .f32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c_0 : Ref sig .tc := ⟨.hbm, 27, rfl⟩
abbrev main_call1_v0 : Ref sig .tc := ⟨.hbm, 28, rfl⟩
abbrev main_v23 : Ref sig .tc := ⟨.hbm, 29, rfl⟩
abbrev main_c_1 : Ref sig .tc := ⟨.hbm, 30, rfl⟩
abbrev main_call2_v0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S8x32x32x32_S8x34x34x32_000_110_110_000 : S8x32x32x32.Pads (![0, 1, 1, 0] : Fin 4 → Nat) ![0, 1, 1, 0] ![0, 0, 0, 0] S8x34x34x32
  h_S_ : 0 < S_.numel
  slices_S8x34x34x32_S8x32x32x32_0_0_0_0 : S8x34x34x32.Slices ![0, 0, 0, 0] S8x32x32x32
  slices_S8x34x34x32_S8x32x32x32_0_0_1_0 : S8x34x34x32.Slices ![0, 0, 1, 0] S8x32x32x32
  slices_S8x34x34x32_S8x32x32x32_0_0_2_0 : S8x34x34x32.Slices ![0, 0, 2, 0] S8x32x32x32
  slices_S8x34x34x32_S8x32x32x32_0_1_0_0 : S8x34x34x32.Slices ![0, 1, 0, 0] S8x32x32x32
  slices_S8x34x34x32_S8x32x32x32_0_1_1_0 : S8x34x34x32.Slices ![0, 1, 1, 0] S8x32x32x32
  slices_S8x34x34x32_S8x32x32x32_0_1_2_0 : S8x34x34x32.Slices ![0, 1, 2, 0] S8x32x32x32
  slices_S8x34x34x32_S8x32x32x32_0_2_0_0 : S8x34x34x32.Slices ![0, 2, 0, 0] S8x32x32x32
  slices_S8x34x34x32_S8x32x32x32_0_2_1_0 : S8x34x34x32.Slices ![0, 2, 1, 0] S8x32x32x32
  slices_S8x34x34x32_S8x32x32x32_0_2_2_0 : S8x34x34x32.Slices ![0, 2, 2, 0] S8x32x32x32
  bcast_S8x32x32x32_S8x32x32x1x32_0_1_2_4 : S8x32x32x32.BroadcastsInDim S8x32x32x1x32 (![0, 1, 2, 4] : Fin 4 → Fin S8x32x32x1x32.rank)
  concatenates_S8x32x32x1x32_S8x32x32x1x32_S8x32x32x1x32_S8x32x32x1x32_S8x32x32x1x32_S8x32x32x1x32_S8x32x32x1x32_S8x32x32x1x32_S8x32x32x1x32_S8x32x32x9x32_d3 : Shape.Concatenates [S8x32x32x1x32, S8x32x32x1x32, S8x32x32x1x32, S8x32x32x1x32, S8x32x32x1x32, S8x32x32x1x32, S8x32x32x1x32, S8x32x32x1x32, S8x32x32x1x32] S8x32x32x9x32 3
  shapeCasts_S8x32x32x9x32_S8x32x32x288 : S8x32x32x9x32.ShapeCasts S8x32x32x288
  shapeCasts_S64x3x3x32_S64x288 : S64x3x3x32.ShapeCasts S64x288
  shapeCasts_S8x32x32x288_S8192x288 : S8x32x32x288.ShapeCasts S8192x288
  pads_S8192x288_S8192x384_000_0960 : S8192x288.Pads (![0, 0] : Fin 2 → Nat) ![0, 96] ![0, 0] S8192x384
  pads_S64x288_S64x384_000_0960 : S64x288.Pads (![0, 0] : Fin 2 → Nat) ![0, 96] ![0, 0] S64x384
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  inb_S64x384_S1x384_0_0 : ∀ a, (![0, 0] : Fin 2 → Nat) a + S1x384.size a ≤ S64x384.size a
  h_S1x384 : 0 < S1x384.numel
  shapeCasts_S1x384_S1x384 : S1x384.ShapeCasts S1x384
  broadcasts_S1x384_S2048x384 : S1x384.Broadcasts S2048x384
  reduces_S2048x384_S2048 : S2048x384.Reduces [1] S2048
  shapeCasts_S2048_S2048x1 : S2048.ShapeCasts S2048x1
  inb_S2048x64_S2048x1_0_0 : ∀ a, (![0, 0] : Fin 2 → Nat) a + S2048x1.size a ≤ S2048x64.size a
  h_S2048x1 : 0 < S2048x1.numel
  inb_S64x384_S1x384_1_0 : ∀ a, (![1, 0] : Fin 2 → Nat) a + S1x384.size a ≤ S64x384.size a
  inb_S2048x64_S2048x1_0_1 : ∀ a, (![0, 1] : Fin 2 → Nat) a + S2048x1.size a ≤ S2048x64.size a
  inb_S64x384_S1x384_2_0 : ∀ a, (![2, 0] : Fin 2 → Nat) a + S1x384.size a ≤ S64x384.size a
  inb_S2048x64_S2048x1_0_2 : ∀ a, (![0, 2] : Fin 2 → Nat) a + S2048x1.size a ≤ S2048x64.size a
  inb_S64x384_S1x384_3_0 : ∀ a, (![3, 0] : Fin 2 → Nat) a + S1x384.size a ≤ S64x384.size a
  inb_S2048x64_S2048x1_0_3 : ∀ a, (![0, 3] : Fin 2 → Nat) a + S2048x1.size a ≤ S2048x64.size a
  inb_S64x384_S1x384_4_0 : ∀ a, (![4, 0] : Fin 2 → Nat) a + S1x384.size a ≤ S64x384.size a
  inb_S2048x64_S2048x1_0_4 : ∀ a, (![0, 4] : Fin 2 → Nat) a + S2048x1.size a ≤ S2048x64.size a
  inb_S64x384_S1x384_5_0 : ∀ a, (![5, 0] : Fin 2 → Nat) a + S1x384.size a ≤ S64x384.size a
  inb_S2048x64_S2048x1_0_5 : ∀ a, (![0, 5] : Fin 2 → Nat) a + S2048x1.size a ≤ S2048x64.size a
  inb_S64x384_S1x384_6_0 : ∀ a, (![6, 0] : Fin 2 → Nat) a + S1x384.size a ≤ S64x384.size a
  inb_S2048x64_S2048x1_0_6 : ∀ a, (![0, 6] : Fin 2 → Nat) a + S2048x1.size a ≤ S2048x64.size a
  inb_S64x384_S1x384_7_0 : ∀ a, (![7, 0] : Fin 2 → Nat) a + S1x384.size a ≤ S64x384.size a
  inb_S2048x64_S2048x1_0_7 : ∀ a, (![0, 7] : Fin 2 → Nat) a + S2048x1.size a ≤ S2048x64.size a
  inb_S64x384_S1x384_8_0 : ∀ a, (![8, 0] : Fin 2 → Nat) a + S1x384.size a ≤ S64x384.size a
  inb_S2048x64_S2048x1_0_8 : ∀ a, (![0, 8] : Fin 2 → Nat) a + S2048x1.size a ≤ S2048x64.size a
  inb_S64x384_S1x384_9_0 : ∀ a, (![9, 0] : Fin 2 → Nat) a + S1x384.size a ≤ S64x384.size a
  inb_S2048x64_S2048x1_0_9 : ∀ a, (![0, 9] : Fin 2 → Nat) a + S2048x1.size a ≤ S2048x64.size a
  inb_S64x384_S1x384_10_0 : ∀ a, (![10, 0] : Fin 2 → Nat) a + S1x384.size a ≤ S64x384.size a
  inb_S2048x64_S2048x1_0_10 : ∀ a, (![0, 10] : Fin 2 → Nat) a + S2048x1.size a ≤ S2048x64.size a
  inb_S64x384_S1x384_11_0 : ∀ a, (![11, 0] : Fin 2 → Nat) a + S1x384.size a ≤ S64x384.size a
  inb_S2048x64_S2048x1_0_11 : ∀ a, (![0, 11] : Fin 2 → Nat) a + S2048x1.size a ≤ S2048x64.size a
  inb_S64x384_S1x384_12_0 : ∀ a, (![12, 0] : Fin 2 → Nat) a + S1x384.size a ≤ S64x384.size a
  inb_S2048x64_S2048x1_0_12 : ∀ a, (![0, 12] : Fin 2 → Nat) a + S2048x1.size a ≤ S2048x64.size a
  inb_S64x384_S1x384_13_0 : ∀ a, (![13, 0] : Fin 2 → Nat) a + S1x384.size a ≤ S64x384.size a
  inb_S2048x64_S2048x1_0_13 : ∀ a, (![0, 13] : Fin 2 → Nat) a + S2048x1.size a ≤ S2048x64.size a
  inb_S64x384_S1x384_14_0 : ∀ a, (![14, 0] : Fin 2 → Nat) a + S1x384.size a ≤ S64x384.size a
  inb_S2048x64_S2048x1_0_14 : ∀ a, (![0, 14] : Fin 2 → Nat) a + S2048x1.size a ≤ S2048x64.size a
  inb_S64x384_S1x384_15_0 : ∀ a, (![15, 0] : Fin 2 → Nat) a + S1x384.size a ≤ S64x384.size a
  inb_S2048x64_S2048x1_0_15 : ∀ a, (![0, 15] : Fin 2 → Nat) a + S2048x1.size a ≤ S2048x64.size a
  inb_S64x384_S1x384_16_0 : ∀ a, (![16, 0] : Fin 2 → Nat) a + S1x384.size a ≤ S64x384.size a
  inb_S2048x64_S2048x1_0_16 : ∀ a, (![0, 16] : Fin 2 → Nat) a + S2048x1.size a ≤ S2048x64.size a
  inb_S64x384_S1x384_17_0 : ∀ a, (![17, 0] : Fin 2 → Nat) a + S1x384.size a ≤ S64x384.size a
  inb_S2048x64_S2048x1_0_17 : ∀ a, (![0, 17] : Fin 2 → Nat) a + S2048x1.size a ≤ S2048x64.size a
  inb_S64x384_S1x384_18_0 : ∀ a, (![18, 0] : Fin 2 → Nat) a + S1x384.size a ≤ S64x384.size a
  inb_S2048x64_S2048x1_0_18 : ∀ a, (![0, 18] : Fin 2 → Nat) a + S2048x1.size a ≤ S2048x64.size a
  inb_S64x384_S1x384_19_0 : ∀ a, (![19, 0] : Fin 2 → Nat) a + S1x384.size a ≤ S64x384.size a
  inb_S2048x64_S2048x1_0_19 : ∀ a, (![0, 19] : Fin 2 → Nat) a + S2048x1.size a ≤ S2048x64.size a
  inb_S64x384_S1x384_20_0 : ∀ a, (![20, 0] : Fin 2 → Nat) a + S1x384.size a ≤ S64x384.size a
  inb_S2048x64_S2048x1_0_20 : ∀ a, (![0, 20] : Fin 2 → Nat) a + S2048x1.size a ≤ S2048x64.size a
  inb_S64x384_S1x384_21_0 : ∀ a, (![21, 0] : Fin 2 → Nat) a + S1x384.size a ≤ S64x384.size a
  inb_S2048x64_S2048x1_0_21 : ∀ a, (![0, 21] : Fin 2 → Nat) a + S2048x1.size a ≤ S2048x64.size a
  inb_S64x384_S1x384_22_0 : ∀ a, (![22, 0] : Fin 2 → Nat) a + S1x384.size a ≤ S64x384.size a
  inb_S2048x64_S2048x1_0_22 : ∀ a, (![0, 22] : Fin 2 → Nat) a + S2048x1.size a ≤ S2048x64.size a
  inb_S64x384_S1x384_23_0 : ∀ a, (![23, 0] : Fin 2 → Nat) a + S1x384.size a ≤ S64x384.size a
  inb_S2048x64_S2048x1_0_23 : ∀ a, (![0, 23] : Fin 2 → Nat) a + S2048x1.size a ≤ S2048x64.size a
  inb_S64x384_S1x384_24_0 : ∀ a, (![24, 0] : Fin 2 → Nat) a + S1x384.size a ≤ S64x384.size a
  inb_S2048x64_S2048x1_0_24 : ∀ a, (![0, 24] : Fin 2 → Nat) a + S2048x1.size a ≤ S2048x64.size a
  inb_S64x384_S1x384_25_0 : ∀ a, (![25, 0] : Fin 2 → Nat) a + S1x384.size a ≤ S64x384.size a
  inb_S2048x64_S2048x1_0_25 : ∀ a, (![0, 25] : Fin 2 → Nat) a + S2048x1.size a ≤ S2048x64.size a
  inb_S64x384_S1x384_26_0 : ∀ a, (![26, 0] : Fin 2 → Nat) a + S1x384.size a ≤ S64x384.size a
  inb_S2048x64_S2048x1_0_26 : ∀ a, (![0, 26] : Fin 2 → Nat) a + S2048x1.size a ≤ S2048x64.size a
  inb_S64x384_S1x384_27_0 : ∀ a, (![27, 0] : Fin 2 → Nat) a + S1x384.size a ≤ S64x384.size a
  inb_S2048x64_S2048x1_0_27 : ∀ a, (![0, 27] : Fin 2 → Nat) a + S2048x1.size a ≤ S2048x64.size a
  inb_S64x384_S1x384_28_0 : ∀ a, (![28, 0] : Fin 2 → Nat) a + S1x384.size a ≤ S64x384.size a
  inb_S2048x64_S2048x1_0_28 : ∀ a, (![0, 28] : Fin 2 → Nat) a + S2048x1.size a ≤ S2048x64.size a
  inb_S64x384_S1x384_29_0 : ∀ a, (![29, 0] : Fin 2 → Nat) a + S1x384.size a ≤ S64x384.size a
  inb_S2048x64_S2048x1_0_29 : ∀ a, (![0, 29] : Fin 2 → Nat) a + S2048x1.size a ≤ S2048x64.size a
  inb_S64x384_S1x384_30_0 : ∀ a, (![30, 0] : Fin 2 → Nat) a + S1x384.size a ≤ S64x384.size a
  inb_S2048x64_S2048x1_0_30 : ∀ a, (![0, 30] : Fin 2 → Nat) a + S2048x1.size a ≤ S2048x64.size a
  inb_S64x384_S1x384_31_0 : ∀ a, (![31, 0] : Fin 2 → Nat) a + S1x384.size a ≤ S64x384.size a
  inb_S2048x64_S2048x1_0_31 : ∀ a, (![0, 31] : Fin 2 → Nat) a + S2048x1.size a ≤ S2048x64.size a
  inb_S64x384_S1x384_32_0 : ∀ a, (![32, 0] : Fin 2 → Nat) a + S1x384.size a ≤ S64x384.size a
  inb_S2048x64_S2048x1_0_32 : ∀ a, (![0, 32] : Fin 2 → Nat) a + S2048x1.size a ≤ S2048x64.size a
  inb_S64x384_S1x384_33_0 : ∀ a, (![33, 0] : Fin 2 → Nat) a + S1x384.size a ≤ S64x384.size a
  inb_S2048x64_S2048x1_0_33 : ∀ a, (![0, 33] : Fin 2 → Nat) a + S2048x1.size a ≤ S2048x64.size a
  inb_S64x384_S1x384_34_0 : ∀ a, (![34, 0] : Fin 2 → Nat) a + S1x384.size a ≤ S64x384.size a
  inb_S2048x64_S2048x1_0_34 : ∀ a, (![0, 34] : Fin 2 → Nat) a + S2048x1.size a ≤ S2048x64.size a
  inb_S64x384_S1x384_35_0 : ∀ a, (![35, 0] : Fin 2 → Nat) a + S1x384.size a ≤ S64x384.size a
  inb_S2048x64_S2048x1_0_35 : ∀ a, (![0, 35] : Fin 2 → Nat) a + S2048x1.size a ≤ S2048x64.size a
  inb_S64x384_S1x384_36_0 : ∀ a, (![36, 0] : Fin 2 → Nat) a + S1x384.size a ≤ S64x384.size a
  inb_S2048x64_S2048x1_0_36 : ∀ a, (![0, 36] : Fin 2 → Nat) a + S2048x1.size a ≤ S2048x64.size a
  inb_S64x384_S1x384_37_0 : ∀ a, (![37, 0] : Fin 2 → Nat) a + S1x384.size a ≤ S64x384.size a
  inb_S2048x64_S2048x1_0_37 : ∀ a, (![0, 37] : Fin 2 → Nat) a + S2048x1.size a ≤ S2048x64.size a
  inb_S64x384_S1x384_38_0 : ∀ a, (![38, 0] : Fin 2 → Nat) a + S1x384.size a ≤ S64x384.size a
  inb_S2048x64_S2048x1_0_38 : ∀ a, (![0, 38] : Fin 2 → Nat) a + S2048x1.size a ≤ S2048x64.size a
  inb_S64x384_S1x384_39_0 : ∀ a, (![39, 0] : Fin 2 → Nat) a + S1x384.size a ≤ S64x384.size a
  inb_S2048x64_S2048x1_0_39 : ∀ a, (![0, 39] : Fin 2 → Nat) a + S2048x1.size a ≤ S2048x64.size a
  inb_S64x384_S1x384_40_0 : ∀ a, (![40, 0] : Fin 2 → Nat) a + S1x384.size a ≤ S64x384.size a
  inb_S2048x64_S2048x1_0_40 : ∀ a, (![0, 40] : Fin 2 → Nat) a + S2048x1.size a ≤ S2048x64.size a
  inb_S64x384_S1x384_41_0 : ∀ a, (![41, 0] : Fin 2 → Nat) a + S1x384.size a ≤ S64x384.size a
  inb_S2048x64_S2048x1_0_41 : ∀ a, (![0, 41] : Fin 2 → Nat) a + S2048x1.size a ≤ S2048x64.size a
  inb_S64x384_S1x384_42_0 : ∀ a, (![42, 0] : Fin 2 → Nat) a + S1x384.size a ≤ S64x384.size a
  inb_S2048x64_S2048x1_0_42 : ∀ a, (![0, 42] : Fin 2 → Nat) a + S2048x1.size a ≤ S2048x64.size a
  inb_S64x384_S1x384_43_0 : ∀ a, (![43, 0] : Fin 2 → Nat) a + S1x384.size a ≤ S64x384.size a
  inb_S2048x64_S2048x1_0_43 : ∀ a, (![0, 43] : Fin 2 → Nat) a + S2048x1.size a ≤ S2048x64.size a
  inb_S64x384_S1x384_44_0 : ∀ a, (![44, 0] : Fin 2 → Nat) a + S1x384.size a ≤ S64x384.size a
  inb_S2048x64_S2048x1_0_44 : ∀ a, (![0, 44] : Fin 2 → Nat) a + S2048x1.size a ≤ S2048x64.size a
  inb_S64x384_S1x384_45_0 : ∀ a, (![45, 0] : Fin 2 → Nat) a + S1x384.size a ≤ S64x384.size a
  inb_S2048x64_S2048x1_0_45 : ∀ a, (![0, 45] : Fin 2 → Nat) a + S2048x1.size a ≤ S2048x64.size a
  inb_S64x384_S1x384_46_0 : ∀ a, (![46, 0] : Fin 2 → Nat) a + S1x384.size a ≤ S64x384.size a
  inb_S2048x64_S2048x1_0_46 : ∀ a, (![0, 46] : Fin 2 → Nat) a + S2048x1.size a ≤ S2048x64.size a
  inb_S64x384_S1x384_47_0 : ∀ a, (![47, 0] : Fin 2 → Nat) a + S1x384.size a ≤ S64x384.size a
  inb_S2048x64_S2048x1_0_47 : ∀ a, (![0, 47] : Fin 2 → Nat) a + S2048x1.size a ≤ S2048x64.size a
  inb_S64x384_S1x384_48_0 : ∀ a, (![48, 0] : Fin 2 → Nat) a + S1x384.size a ≤ S64x384.size a
  inb_S2048x64_S2048x1_0_48 : ∀ a, (![0, 48] : Fin 2 → Nat) a + S2048x1.size a ≤ S2048x64.size a
  inb_S64x384_S1x384_49_0 : ∀ a, (![49, 0] : Fin 2 → Nat) a + S1x384.size a ≤ S64x384.size a
  inb_S2048x64_S2048x1_0_49 : ∀ a, (![0, 49] : Fin 2 → Nat) a + S2048x1.size a ≤ S2048x64.size a
  inb_S64x384_S1x384_50_0 : ∀ a, (![50, 0] : Fin 2 → Nat) a + S1x384.size a ≤ S64x384.size a
  inb_S2048x64_S2048x1_0_50 : ∀ a, (![0, 50] : Fin 2 → Nat) a + S2048x1.size a ≤ S2048x64.size a
  inb_S64x384_S1x384_51_0 : ∀ a, (![51, 0] : Fin 2 → Nat) a + S1x384.size a ≤ S64x384.size a
  inb_S2048x64_S2048x1_0_51 : ∀ a, (![0, 51] : Fin 2 → Nat) a + S2048x1.size a ≤ S2048x64.size a
  inb_S64x384_S1x384_52_0 : ∀ a, (![52, 0] : Fin 2 → Nat) a + S1x384.size a ≤ S64x384.size a
  inb_S2048x64_S2048x1_0_52 : ∀ a, (![0, 52] : Fin 2 → Nat) a + S2048x1.size a ≤ S2048x64.size a
  inb_S64x384_S1x384_53_0 : ∀ a, (![53, 0] : Fin 2 → Nat) a + S1x384.size a ≤ S64x384.size a
  inb_S2048x64_S2048x1_0_53 : ∀ a, (![0, 53] : Fin 2 → Nat) a + S2048x1.size a ≤ S2048x64.size a
  inb_S64x384_S1x384_54_0 : ∀ a, (![54, 0] : Fin 2 → Nat) a + S1x384.size a ≤ S64x384.size a
  inb_S2048x64_S2048x1_0_54 : ∀ a, (![0, 54] : Fin 2 → Nat) a + S2048x1.size a ≤ S2048x64.size a
  inb_S64x384_S1x384_55_0 : ∀ a, (![55, 0] : Fin 2 → Nat) a + S1x384.size a ≤ S64x384.size a
  inb_S2048x64_S2048x1_0_55 : ∀ a, (![0, 55] : Fin 2 → Nat) a + S2048x1.size a ≤ S2048x64.size a
  inb_S64x384_S1x384_56_0 : ∀ a, (![56, 0] : Fin 2 → Nat) a + S1x384.size a ≤ S64x384.size a
  inb_S2048x64_S2048x1_0_56 : ∀ a, (![0, 56] : Fin 2 → Nat) a + S2048x1.size a ≤ S2048x64.size a
  inb_S64x384_S1x384_57_0 : ∀ a, (![57, 0] : Fin 2 → Nat) a + S1x384.size a ≤ S64x384.size a
  inb_S2048x64_S2048x1_0_57 : ∀ a, (![0, 57] : Fin 2 → Nat) a + S2048x1.size a ≤ S2048x64.size a
  inb_S64x384_S1x384_58_0 : ∀ a, (![58, 0] : Fin 2 → Nat) a + S1x384.size a ≤ S64x384.size a
  inb_S2048x64_S2048x1_0_58 : ∀ a, (![0, 58] : Fin 2 → Nat) a + S2048x1.size a ≤ S2048x64.size a
  inb_S64x384_S1x384_59_0 : ∀ a, (![59, 0] : Fin 2 → Nat) a + S1x384.size a ≤ S64x384.size a
  inb_S2048x64_S2048x1_0_59 : ∀ a, (![0, 59] : Fin 2 → Nat) a + S2048x1.size a ≤ S2048x64.size a
  inb_S64x384_S1x384_60_0 : ∀ a, (![60, 0] : Fin 2 → Nat) a + S1x384.size a ≤ S64x384.size a
  inb_S2048x64_S2048x1_0_60 : ∀ a, (![0, 60] : Fin 2 → Nat) a + S2048x1.size a ≤ S2048x64.size a
  inb_S64x384_S1x384_61_0 : ∀ a, (![61, 0] : Fin 2 → Nat) a + S1x384.size a ≤ S64x384.size a
  inb_S2048x64_S2048x1_0_61 : ∀ a, (![0, 61] : Fin 2 → Nat) a + S2048x1.size a ≤ S2048x64.size a
  inb_S64x384_S1x384_62_0 : ∀ a, (![62, 0] : Fin 2 → Nat) a + S1x384.size a ≤ S64x384.size a
  inb_S2048x64_S2048x1_0_62 : ∀ a, (![0, 62] : Fin 2 → Nat) a + S2048x1.size a ≤ S2048x64.size a
  inb_S64x384_S1x384_63_0 : ∀ a, (![63, 0] : Fin 2 → Nat) a + S1x384.size a ≤ S64x384.size a
  inb_S2048x64_S2048x1_0_63 : ∀ a, (![0, 63] : Fin 2 → Nat) a + S2048x1.size a ≤ S2048x64.size a
  shapeCasts_S8192x64_S8x32x32x64 : S8192x64.ShapeCasts S8x32x32x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x384.size a ≤ S8192x384.size a
  hwx0_0 : ∀ i : grid0.Coords, EltTy.bits .f32 = 32 ∨ (Rect.block (s := S8192x384) S2048x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x384.size a ≤ S64x384.size a
  hwx0_1 : ∀ i : grid0.Coords, EltTy.bits .f32 = 32 ∨ (Rect.block (s := S64x384) S64x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S8192x64.size a
  hwx0_2 : ∀ i : grid0.Coords, EltTy.bits .f32 = 32 ∨ (Rect.block (s := S8192x64) S2048x64.size (cc0_transform_2 i) (hinb0_2 i)).WholeWords (EltTy.packing .f32)

variable [Facts₀]

abbrev win0_0 : Pipeline.Window sig grid0 :=
  Pipeline.Window.ofSpec (Memref.whole main_v23) S2048x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S64x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x32x32 : Shape := ⟨4, ![8, 32, 32, 32]⟩
abbrev S64x3x3x32 : Shape := ⟨4, ![64, 3, 3, 32]⟩
abbrev S_ : Shape := ⟨0, ![]⟩
abbrev S8x34x34x32 : Shape := ⟨4, ![8, 34, 34, 32]⟩
abbrev S8x32x32x1x32 : Shape := ⟨5, ![8, 32, 32, 1, 32]⟩
abbrev S8x32x32x9x32 : Shape := ⟨5, ![8, 32, 32, 9, 32]⟩
abbrev S8x32x32x288 : Shape := ⟨4, ![8, 32, 32, 288]⟩
abbrev S64x288 : Shape := ⟨2, ![64, 288]⟩
abbrev S8192x1x288 : Shape := ⟨3, ![8192, 1, 288]⟩
abbrev S1x64x288 : Shape := ⟨3, ![1, 64, 288]⟩
abbrev S8192x64x288 : Shape := ⟨3, ![8192, 64, 288]⟩
abbrev S8192x64 : Shape := ⟨2, ![8192, 64]⟩
abbrev S8x32x32x64 : Shape := ⟨4, ![8, 32, 32, 64]⟩

abbrev nBuf : Space → Nat
  | .hbm => 35
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S64x3x3x32, .f32⟩
  | .hbm, ⟨2, _⟩ => ⟨S_, .i32⟩
  | .hbm, ⟨3, _⟩ => ⟨S_, .f32⟩
  | .hbm, ⟨4, _⟩ => ⟨S8x34x34x32, .f32⟩
  | .hbm, ⟨5, _⟩ => ⟨S8x32x32x32, .f32⟩
  | .hbm, ⟨6, _⟩ => ⟨S8x32x32x32, .f32⟩
  | .hbm, ⟨7, _⟩ => ⟨S8x32x32x32, .f32⟩
  | .hbm, ⟨8, _⟩ => ⟨S8x32x32x32, .f32⟩
  | .hbm, ⟨9, _⟩ => ⟨S8x32x32x32, .f32⟩
  | .hbm, ⟨10, _⟩ => ⟨S8x32x32x32, .f32⟩
  | .hbm, ⟨11, _⟩ => ⟨S8x32x32x32, .f32⟩
  | .hbm, ⟨12, _⟩ => ⟨S8x32x32x32, .f32⟩
  | .hbm, ⟨13, _⟩ => ⟨S8x32x32x32, .f32⟩
  | .hbm, ⟨14, _⟩ => ⟨S8x32x32x1x32, .f32⟩
  | .hbm, ⟨15, _⟩ => ⟨S8x32x32x1x32, .f32⟩
  | .hbm, ⟨16, _⟩ => ⟨S8x32x32x1x32, .f32⟩
  | .hbm, ⟨17, _⟩ => ⟨S8x32x32x1x32, .f32⟩
  | .hbm, ⟨18, _⟩ => ⟨S8x32x32x1x32, .f32⟩
  | .hbm, ⟨19, _⟩ => ⟨S8x32x32x1x32, .f32⟩
  | .hbm, ⟨20, _⟩ => ⟨S8x32x32x1x32, .f32⟩
  | .hbm, ⟨21, _⟩ => ⟨S8x32x32x1x32, .f32⟩
  | .hbm, ⟨22, _⟩ => ⟨S8x32x32x1x32, .f32⟩
  | .hbm, ⟨23, _⟩ => ⟨S8x32x32x9x32, .f32⟩
  | .hbm, ⟨24, _⟩ => ⟨S8x32x32x288, .f32⟩
  | .hbm, ⟨25, _⟩ => ⟨S64x288, .f32⟩
  | .hbm, ⟨26, _⟩ => ⟨S8192x1x288, .f32⟩
  | .hbm, ⟨27, _⟩ => ⟨S1x64x288, .f32⟩
  | .hbm, ⟨28, _⟩ => ⟨S8192x64x288, .f32⟩
  | .hbm, ⟨29, _⟩ => ⟨S8192x64x288, .f32⟩
  | .hbm, ⟨30, _⟩ => ⟨S8192x64x288, .f32⟩
  | .hbm, ⟨31, _⟩ => ⟨S8192x64x288, .f32⟩
  | .hbm, ⟨32, _⟩ => ⟨S_, .f32⟩
  | .hbm, ⟨33, _⟩ => ⟨S8192x64, .f32⟩
  | .hbm, ⟨34, _⟩ => ⟨S8x32x32x64, .f32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]

class Facts₀ : Prop where
  pads_S8x32x32x32_S8x34x34x32_000_110_110_000 : S8x32x32x32.Pads (![0, 1, 1, 0] : Fin 4 → Nat) ![0, 1, 1, 0] ![0, 0, 0, 0] S8x34x34x32
  h_S_ : 0 < S_.numel
  slices_S8x34x34x32_S8x32x32x32_0_0_0_0 : S8x34x34x32.Slices ![0, 0, 0, 0] S8x32x32x32
  slices_S8x34x34x32_S8x32x32x32_0_0_1_0 : S8x34x34x32.Slices ![0, 0, 1, 0] S8x32x32x32
  slices_S8x34x34x32_S8x32x32x32_0_0_2_0 : S8x34x34x32.Slices ![0, 0, 2, 0] S8x32x32x32
  slices_S8x34x34x32_S8x32x32x32_0_1_0_0 : S8x34x34x32.Slices ![0, 1, 0, 0] S8x32x32x32
  slices_S8x34x34x32_S8x32x32x32_0_1_1_0 : S8x34x34x32.Slices ![0, 1, 1, 0] S8x32x32x32
  slices_S8x34x34x32_S8x32x32x32_0_1_2_0 : S8x34x34x32.Slices ![0, 1, 2, 0] S8x32x32x32
  slices_S8x34x34x32_S8x32x32x32_0_2_0_0 : S8x34x34x32.Slices ![0, 2, 0, 0] S8x32x32x32
  slices_S8x34x34x32_S8x32x32x32_0_2_1_0 : S8x34x34x32.Slices ![0, 2, 1, 0] S8x32x32x32
  slices_S8x34x34x32_S8x32x32x32_0_2_2_0 : S8x34x34x32.Slices ![0, 2, 2, 0] S8x32x32x32
  bcast_S8x32x32x32_S8x32x32x1x32_0_1_2_4 : S8x32x32x32.BroadcastsInDim S8x32x32x1x32 (![0, 1, 2, 4] : Fin 4 → Fin S8x32x32x1x32.rank)
  concatenates_S8x32x32x1x32_S8x32x32x1x32_S8x32x32x1x32_S8x32x32x1x32_S8x32x32x1x32_S8x32x32x1x32_S8x32x32x1x32_S8x32x32x1x32_S8x32x32x1x32_S8x32x32x9x32_d3 : Shape.Concatenates [S8x32x32x1x32, S8x32x32x1x32, S8x32x32x1x32, S8x32x32x1x32, S8x32x32x1x32, S8x32x32x1x32, S8x32x32x1x32, S8x32x32x1x32, S8x32x32x1x32] S8x32x32x9x32 3
  shapeCasts_S8x32x32x9x32_S8x32x32x288 : S8x32x32x9x32.ShapeCasts S8x32x32x288
  shapeCasts_S64x3x3x32_S64x288 : S64x3x3x32.ShapeCasts S64x288
  shapeCasts_S8x32x32x288_S8192x1x288 : S8x32x32x288.ShapeCasts S8192x1x288
  bcast_S64x288_S1x64x288_1_2 : S64x288.BroadcastsInDim S1x64x288 (![1, 2] : Fin 2 → Fin S1x64x288.rank)
  bcast_S8192x1x288_S8192x64x288_0_1_2 : S8192x1x288.BroadcastsInDim S8192x64x288 (![0, 1, 2] : Fin 3 → Fin S8192x64x288.rank)
  bcast_S1x64x288_S8192x64x288_0_1_2 : S1x64x288.BroadcastsInDim S8192x64x288 (![0, 1, 2] : Fin 3 → Fin S8192x64x288.rank)
  reducesTo_S8192x64x288_S8192x64_d2 : S8192x64x288.ReducesTo [2] S8192x64
  shapeCasts_S8192x64_S8x32x32x64 : S8192x64.ShapeCasts S8x32x32x64

variable [Facts₀]

class Facts : Prop extends Facts₀ where

variable [Facts]
-- ==== Proof.KBitsAround.lean ====
/-
  The host lines of @main around its one kernel region.

  @main is six stretches of host operations (zero-pad the image by one pixel on each side of the two spatial axes; cut the
  nine 3×3-shifted views; stack them on a new axis and flatten it with the channels into patches of 288 values; flatten the
  filters the same way; zero-pad both flattened arrays from 288 to 384 lanes), the region, and one closing reshape. None of
  the operations before the region writes an argument array, and the closing reshape writes only the result buffer, so the
  arguments reach the region, and end, as they were launched. Everything here is stated at an arbitrary float family `F`.
-/
import proofs.«117486_j5617817223690_1_alg».proof.Proof.Gen.Kernel.Launch
import proofs.«117486_j5617817223690_1_alg».proof.Proof.Gen.Kernel.Points
import Idealize.ShloMosaic.Lib.Pipeline.FrameBody
import Idealize.ShloMosaic.Lib.Pipeline.FrameSuffix

set_option maxRecDepth 16384

noncomputable section

namespace Cert.Kernel.Around

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers as the region finds them -/

/-- Core `c`'s TensorCore buffers when the region is entered: the launch contents after the six stretches of host
    operations that stand before the region. -/
abbrev V0 (c : Dev nD) : Valuation τ sig (Elt F) :=
  StableHlo.after (List.flatten [hostOps0, hostOps0_1, hostOps0_2, hostOps0_3, hostOps0_4, hostOps0_5]) (fun b => m (c, b))
/-- The same, read at one TensorCore reference. -/
abbrev V (c : Dev nD) (b : Ref sig .tc) : Buf (Elt F) ((c : Thread nD τ).loc b) := V0 m c (Proc.devRef .tc b)

/-! ## No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## @main is: the host lines, the region, the closing reshape -/

/-- @main runs its six leading stretches from the launch memory, reaches the region with the buffers at `V`, and is
    continued after the region by the closing reshape. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5] [hostOps1]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩)
    main_chain

/-! ## The closing reshape: what it may touch -/

/-- It touches unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- It writes the result buffer, which is none of the pipeline's three arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The argument arrays are never written -/

/-- The image reaches the region as launched: no operation before the region writes it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil,
      List.append_nil, List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))

/-- The filters reach the region as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil,
      List.append_nil, List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))

/-- The closing reshape does not write the image either: it ends as launched, whatever the region left in its arrays. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- Nor the filters. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-! ## A window's block at a grid point -/

/-- Window `w`'s block at point `t`, read off its array as the region finds it: 2048 rows of padded patches for window 0,
    the whole padded filter matrix for window 1. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The patch window's staging buffer holds its block at every point (it is fetched at every point), for any proof data
    whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The filter window's staging buffer holds the filter matrix at every point: fetched at the first point, its block
    index never moves, and the body leaves it in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From a frame run to the claims' posts -/

/-- From a run that ends with the pipeline's arrays at what the proof data compute and every other unscoped buffer as the
    closing reshape leaves it: the argument arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-- The same run, keeping also the result buffer: it ends at the closing reshape of the region's output array. -/
theorem result_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v26) = Pipeline.afterTail₀ cfgs dats 0 (V0 m) [hostOps1] c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v26 (Pipeline.mem_restRefs_of main_v26 (by decide) (by decide)),
     ((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

end Cert.Kernel.Around

end
-- ==== Proof.KBitsColumns.lean ====
/-
  One run of the kernel body on whole staging buffers.

  The body loads its 2048×384 block of padded patches once; then, for each of the 64 filters in turn, it loads that
  filter's padded row, subtracts it from every patch row, takes absolute values, sums each row over its 384 lanes, and
  stores the 2048 sums into one column of the 2048×64 output buffer (it also loads that column beforehand and ignores what
  it read). The two input buffers end as they were; the output buffer ends with 64 column pieces written over whatever it
  held. Which pieces is left to the run itself to find: it is the first component of `columnsRun`, and its second component
  is the triple.
-/
import proofs.«117486_j5617817223690_1_alg».proof.Proof.Gen.Kernel.Launch
import proofs.«117486_j5617817223690_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Columns

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The column pieces the body leaves in the output buffer (last store first), with the proof that from the patch buffer
    at `x0`, the filter buffer at `x1` and the output buffer at anything, the body runs to a continuation that is handed the
    two inputs unchanged and the output buffer with those pieces written. -/
noncomputable def columnsRun (c : Dev nD) (i : grid0.Coords)
    (arg1 : Memref sig .tc .vmem S2048x384 .f32) (harg1 : arg1.IsWhole)
    (arg2 : Memref sig .tc .vmem S64x384 .f32) (harg2 : arg2.IsWhole)
    (arg3 : Memref sig .tc .vmem S2048x64 .f32) (harg3 : arg3.IsWhole)
    (x0 : Vec F S2048x384 .f32) (x1 : Vec F S64x384 .f32) :
    { L : List (View.Piece (Elt F) S2048x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__l1dist_kernel i arg1 harg1 arg2 harg2 arg3 harg3) K } := by
  refine ⟨?_, fun E K => ?run⟩
  case run =>
    simp only [cc0__l1dist_kernel_eq_skeleton]; unfold cc0__l1dist_kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Columns

end
-- ==== Proof.KBitsRegion.lean ====
/-
  The kernel region: its proof data, the body at every grid point, and the run of @main.

  The grid has four points; point `t` handles patch rows 2048·t … 2048·t + 2047. At every point the patch window's buffer
  holds its block of 2048 padded patch rows and the filter window's buffer the whole padded filter matrix (fetched once, its
  block never moves); the body leaves both in place and leaves in the output window's buffer the 64 column pieces of
  `Columns.columnsRun`, which tile the 2048×64 block, so the buffer holds exactly their canonical reading. The output
  window is written back at every point. From this the library's frame run gives: every weakly fair execution of @main
  terminates without fault, the pipeline's arrays end at what the proof data compute, every other unscoped buffer as the
  closing reshape leaves it.
-/
import proofs.«117486_j5617817223690_1_alg».proof.Proof.KBitsAround
import proofs.«117486_j5617817223690_1_alg».proof.Proof.KBitsColumns

set_option maxRecDepth 16384

noncomputable section

namespace Cert.Kernel.Region

open Cert.Kernel Cert.Kernel.Gen Cert.Kernel.Around Cert.Kernel.Columns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output buffer -/

/-- The 64 column pieces tile the 2048×64 block, so every index of the block lies in one of them. -/
theorem columns_cover (c : Dev nD) (i : grid0.Coords)
    (arg1 : Memref sig .tc .vmem S2048x384 .f32) (harg1 : arg1.IsWhole)
    (arg2 : Memref sig .tc .vmem S64x384 .f32) (harg2 : arg2.IsWhole)
    (arg3 : Memref sig .tc .vmem S2048x64 .f32) (harg3 : arg3.IsWhole)
    (x0 : Vec F S2048x384 .f32) (x1 : Vec F S64x384 .f32) (y : S2048x64.Idx) :
    ∃ pc ∈ (columnsRun c i arg1 harg1 arg2 harg2 arg3 harg3 x0 x1).1, y ∈ pc.1.set :=
  View.cover_of_tiledL (columnsRun c i arg1 harg1 arg2 harg2 arg3 harg3 x0 x1).1 S2048x1.size (by sl_kernel_rfl) y

/-- The output buffer after the body at point `t`: the column pieces the run finds there, read as one block. -/
def colsAt (c : Dev nD) (t : Fin cfg0.N) : Vec F S2048x64 .f32 :=
  View.canon (columnsRun c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (iblk m c 0 t) (iblk m c 1 t)).1

/-! ## The proof data -/

/-- Core `c`'s proof data: the arrays as the region finds them; after the body at point `t` the two inputs' buffers at
    their blocks and the output's at `colsAt`; the invariant the untouched scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => colsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = colsAt m c t := by dsimp only [dats]

/-- The two inputs' buffers hold their blocks when the body is called, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 1000000 in
/-- The body at any point: the inputs' buffers hold their blocks, so the run of `Columns.columnsRun` applies; the pieces it
    writes cover the output buffer, which therefore holds their canonical reading whatever it held before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold colsAt
  iintro ⟨HΦ, Ho, ⟨%d0, H0⟩, ⟨%d1, H1⟩, ⟨%d2, H2⟩⟩
  iapply ((columnsRun c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_eq_canon _ _ _ (columns_cover c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run of @main -/

set_option backward.isDefEq.respectTransparency.types false in
/-- From any memory with zero counters every weakly fair execution of @main terminates, nothing faulting, with the
    pipeline's three arrays at what the proof data compute and every other unscoped buffer as the closing reshape leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: @main runs to the end and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

/-- The same run with the result buffer kept: the closing reshape of the region's output array. -/
theorem result : θ_run defs (onTc (τ := τ) (main (F := F))) ⟨m, fun _ => 0, ρ⟩ (fun r => ∀ c : Dev nD,
      r.2.mem ((c.tc : Thread nD τ).loc main_v26) = Pipeline.afterTail₀ cfgs (dats m) 0 (V0 m) [hostOps1] c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  result_of m ρ (dats m) (run_main m ρ)

end Cert.Kernel.Region

end
-- ==== Proof.KIdealAround.lean ====
/-
  The host lines of @main around its one kernel region.

  @main is six stretches of host operations (zero-pad the image by one pixel on each side of the two spatial axes; cut the
  nine 3×3-shifted views; stack them on a new axis and flatten it with the channels into patches of 288 values; flatten the
  filters the same way; zero-pad both flattened arrays from 288 to 384 lanes), the region, and one closing reshape. None of
  the operations before the region writes an argument array, and the closing reshape writes only the result buffer, so the
  arguments reach the region, and end, as they were launched. Everything here is stated at an arbitrary float family `F`.
-/
import proofs.«117486_j5617817223690_1_alg».proof.Proof.Gen.KernelIdeal.Launch
import proofs.«117486_j5617817223690_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers as the region finds them -/

/-- Core `c`'s TensorCore buffers when the region is entered: the launch contents after the six stretches of host
    operations that stand before the region. -/
abbrev V0 (c : Dev nD) : Valuation τ sig (Elt F) :=
  StableHlo.after (List.flatten [hostOps0, hostOps0_1, hostOps0_2, hostOps0_3, hostOps0_4, hostOps0_5]) (fun b => m (c, b))
/-- The same, read at one TensorCore reference. -/
abbrev V (c : Dev nD) (b : Ref sig .tc) : Buf (Elt F) ((c : Thread nD τ).loc b) := V0 m c (Proc.devRef .tc b)

/-! ## No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## @main is: the host lines, the region, the closing reshape -/

/-- @main runs its six leading stretches from the launch memory, reaches the region with the buffers at `V`, and is
    continued after the region by the closing reshape. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5] [hostOps1]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩)
    main_chain

/-! ## The closing reshape: what it may touch -/

/-- It touches unscoped TensorCore buffers only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- It writes the result buffer, which is none of the pipeline's three arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The argument arrays are never written -/

/-- The image reaches the region as launched: no operation before the region writes it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil,
      List.append_nil, List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))

/-- The filters reach the region as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil,
      List.append_nil, List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))

/-- The closing reshape does not write the image either: it ends as launched, whatever the region left in its arrays. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- Nor the filters. -/
theorem W_main_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append,
        List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-! ## A window's block at a grid point -/

/-- Window `w`'s block at point `t`, read off its array as the region finds it: 2048 rows of padded patches for window 0,
    the whole padded filter matrix for window 1. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The patch window's staging buffer holds its block at every point (it is fetched at every point), for any proof data
    whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The filter window's staging buffer holds the filter matrix at every point: fetched at the first point, its block
    index never moves, and the body leaves it in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From a frame run to the claims' posts -/

/-- From a run that ends with the pipeline's arrays at what the proof data compute and every other unscoped buffer as the
    closing reshape leaves it: the argument arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-- The same run, keeping also the result buffer: it ends at the closing reshape of the region's output array. -/
theorem result_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_v26) = Pipeline.afterTail₀ cfgs dats 0 (V0 m) [hostOps1] c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v26 (Pipeline.mem_restRefs_of main_v26 (by decide) (by decide)),
     ((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

end Cert.KernelIdeal.Around

end
-- ==== Proof.KIdealColumns.lean ====
/-
  One run of the kernel body on whole staging buffers.

  The body loads its 2048×384 block of padded patches once; then, for each of the 64 filters in turn, it loads that
  filter's padded row, subtracts it from every patch row, takes absolute values, sums each row over its 384 lanes, and
  stores the 2048 sums into one column of the 2048×64 output buffer (it also loads that column beforehand and ignores what
  it read). The two input buffers end as they were; the output buffer ends with 64 column pieces written over whatever it
  held. Which pieces is left to the run itself to find: it is the first component of `columnsRun`, and its second component
  is the triple.
-/
import proofs.«117486_j5617817223690_1_alg».proof.Proof.Gen.KernelIdeal.Launch
import proofs.«117486_j5617817223690_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Columns

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The column pieces the body leaves in the output buffer (last store first), with the proof that from the patch buffer
    at `x0`, the filter buffer at `x1` and the output buffer at anything, the body runs to a continuation that is handed the
    two inputs unchanged and the output buffer with those pieces written. -/
noncomputable def columnsRun (c : Dev nD) (i : grid0.Coords)
    (arg1 : Memref sig .tc .vmem S2048x384 .f32) (harg1 : arg1.IsWhole)
    (arg2 : Memref sig .tc .vmem S64x384 .f32) (harg2 : arg2.IsWhole)
    (arg3 : Memref sig .tc .vmem S2048x64 .f32) (harg3 : arg3.IsWhole)
    (x0 : Vec F S2048x384 .f32) (x1 : Vec F S64x384 .f32) :
    { L : List (View.Piece (Elt F) S2048x64 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)) -∗ K ⟨⟩))
          ⊢ wp frame (wpE (defs₀ (F := F)) Variants.none c none) E (cc0__l1dist_kernel i arg1 harg1 arg2 harg2 arg3 harg3) K } := by
  refine ⟨?_, fun E K => ?run⟩
  case run =>
    simp only [cc0__l1dist_kernel_eq_skeleton]; unfold cc0__l1dist_kernel_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Columns

end
-- ==== Proof.KIdealRegion.lean ====
/-
  The kernel region: its proof data, the body at every grid point, and the run of @main.

  The grid has four points; point `t` handles patch rows 2048·t … 2048·t + 2047. At every point the patch window's buffer
  holds its block of 2048 padded patch rows and the filter window's buffer the whole padded filter matrix (fetched once, its
  block never moves); the body leaves both in place and leaves in the output window's buffer the 64 column pieces of
  `Columns.columnsRun`, which tile the 2048×64 block, so the buffer holds exactly their canonical reading. The output
  window is written back at every point. From this the library's frame run gives: every weakly fair execution of @main
  terminates without fault, the pipeline's arrays end at what the proof data compute, every other unscoped buffer as the
  closing reshape leaves it.
-/
import proofs.«117486_j5617817223690_1_alg».proof.Proof.KIdealAround
import proofs.«117486_j5617817223690_1_alg».proof.Proof.KIdealColumns

set_option maxRecDepth 16384

noncomputable section

namespace Cert.KernelIdeal.Region

open Cert.KernelIdeal Cert.KernelIdeal.Gen Cert.KernelIdeal.Around Cert.KernelIdeal.Columns
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output buffer -/

/-- The 64 column pieces tile the 2048×64 block, so every index of the block lies in one of them. -/
theorem columns_cover (c : Dev nD) (i : grid0.Coords)
    (arg1 : Memref sig .tc .vmem S2048x384 .f32) (harg1 : arg1.IsWhole)
    (arg2 : Memref sig .tc .vmem S64x384 .f32) (harg2 : arg2.IsWhole)
    (arg3 : Memref sig .tc .vmem S2048x64 .f32) (harg3 : arg3.IsWhole)
    (x0 : Vec F S2048x384 .f32) (x1 : Vec F S64x384 .f32) (y : S2048x64.Idx) :
    ∃ pc ∈ (columnsRun c i arg1 harg1 arg2 harg2 arg3 harg3 x0 x1).1, y ∈ pc.1.set :=
  View.cover_of_tiledL (columnsRun c i arg1 harg1 arg2 harg2 arg3 harg3 x0 x1).1 S2048x1.size (by sl_kernel_rfl) y

/-- The output buffer after the body at point `t`: the column pieces the run finds there, read as one block. -/
def colsAt (c : Dev nD) (t : Fin cfg0.N) : Vec F S2048x64 .f32 :=
  View.canon (columnsRun c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (iblk m c 0 t) (iblk m c 1 t)).1

/-! ## The proof data -/

/-- Core `c`'s proof data: the arrays as the region finds them; after the body at point `t` the two inputs' buffers at
    their blocks and the output's at `colsAt`; the invariant the untouched scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => colsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = colsAt m c t := by dsimp only [dats]

/-- The two inputs' buffers hold their blocks when the body is called, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a grid point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 1000000 in
/-- The body at any point: the inputs' buffers hold their blocks, so the run of `Columns.columnsRun` applies; the pieces it
    writes cover the output buffer, which therefore holds their canonical reading whatever it held before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold colsAt
  iintro ⟨HΦ, Ho, ⟨%d0, H0⟩, ⟨%d1, H1⟩, ⟨%d2, H2⟩⟩
  iapply ((columnsRun c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_eq_canon _ _ _ (columns_cover c _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run of @main -/

set_option backward.isDefEq.respectTransparency.types false in
/-- From any memory with zero counters every weakly fair execution of @main terminates, nothing faulting, with the
    pipeline's three arrays at what the proof data compute and every other unscoped buffer as the closing reshape leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: @main runs to the end and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

/-- The same run with the result buffer kept: the closing reshape of the region's output array. -/
theorem result : θ_run defs (onTc (τ := τ) (main (F := F))) ⟨m, fun _ => 0, ρ⟩ (fun r => ∀ c : Dev nD,
      r.2.mem ((c.tc : Thread nD τ).loc main_v26) = Pipeline.afterTail₀ cfgs (dats m) 0 (V0 m) [hostOps1] c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  result_of m ρ (dats m) (run_main m ρ)

end Cert.KernelIdeal.Region

end
-- ==== Proof.RowDist.lean ====
/-
  L1 distances between rows, and why zero lanes do not change them.

  For a matrix `P` of `M` rows and a matrix `W` of `C` rows, both of `K` lanes over the extended reals, `rowDist P W` is
  the `M × C` matrix whose entry `(r, c)` is the sum over the lanes `k` of `|P r k − W c k|`, the absolute value taken as
  `max x (−x)`. `lanePad` extends a matrix of 288 lanes to 384 lanes by zeros. Since `|0 − 0| = 0` and a sum over
  288 + 96 lanes splits into the sum over the first 288 and the sum over the last 96, padding both operands leaves every
  distance unchanged. No finiteness is used: the extended reals are a commutative additive monoid.
-/
import Idealize.ShloMosaic.PureOps.Ideal
import Idealize.ShloMosaic.Lib.ValueIdx
import Mathlib.Algebra.BigOperators.Fin
import Mathlib.Data.EReal.Basic

noncomputable section

namespace Cert.RowDist

open Idealize.ShloMosaic Idealize.ShloMosaic.ValueIdx

/-- The absolute difference of two extended reals, as the float operations spell it. -/
def absDiff (a b : EReal) : EReal := max (a - b) (-(a - b))

theorem absDiff_zero : absDiff 0 0 = 0 := by simp [absDiff]

/-- The row coordinate of an index of a two-axis array, as a number below the row count. -/
abbrev row {M C : Nat} (j : (⟨2, ![M, C]⟩ : Shape).Idx) : Fin M := ⟨(j 0).val, idx2_lt0 j⟩
/-- Its column coordinate. -/
abbrev col {M C : Nat} (j : (⟨2, ![M, C]⟩ : Shape).Idx) : Fin C := ⟨(j 1).val, idx2_lt1 j⟩

/-- Entry `(r, c)`: the sum over the lanes of the absolute differences of row `r` of `P` and row `c` of `W`. -/
def rowDist {M C K : Nat} (P : (⟨2, ![M, K]⟩ : Shape).Idx → EReal) (W : (⟨2, ![C, K]⟩ : Shape).Idx → EReal) :
    (⟨2, ![M, C]⟩ : Shape).Idx → EReal :=
  fun j => ∑ k : Fin K, absDiff (P (ix2 (row j) k)) (W (ix2 (col j) k))

/-- A matrix of 288 lanes extended to 384 lanes by zeros. -/
def lanePad {M : Nat} (P : (⟨2, ![M, 288]⟩ : Shape).Idx → EReal) : (⟨2, ![M, 384]⟩ : Shape).Idx → EReal :=
  fun j => if h : (col j).val < 288 then P (ix2 (row j) ⟨(col j).val, h⟩) else 0

theorem lanePad_low {M : Nat} (P : (⟨2, ![M, 288]⟩ : Shape).Idx → EReal) (r : Fin M) (k : Fin 288) :
    lanePad P (ix2 r (Fin.castAdd 96 k)) = P (ix2 r k) := by
  unfold lanePad
  rw [dif_pos (show (col (ix2 r (Fin.castAdd 96 k) : (⟨2, ![M, 384]⟩ : Shape).Idx)).val < 288 from k.isLt)]
  rfl

theorem lanePad_high {M : Nat} (P : (⟨2, ![M, 288]⟩ : Shape).Idx → EReal) (r : Fin M) (k : Fin 96) :
    lanePad P (ix2 r (Fin.natAdd 288 k)) = 0 := by
  unfold lanePad
  rw [dif_neg (show ¬(col (ix2 r (Fin.natAdd 288 k) : (⟨2, ![M, 384]⟩ : Shape).Idx)).val < 288 from by
    show ¬(288 + k.val < 288); omega)]

/-- Padding both operands with 96 zero lanes leaves every row distance unchanged. -/
theorem rowDist_lanePad {M C : Nat} (P : (⟨2, ![M, 288]⟩ : Shape).Idx → EReal) (W : (⟨2, ![C, 288]⟩ : Shape).Idx → EReal) :
    rowDist (lanePad P) (lanePad W) = rowDist P W := by
  funext j
  unfold rowDist
  refine (Fin.sum_univ_add (a := 288) (b := 96)
    (fun k => absDiff (lanePad P (ix2 (row j) k)) (lanePad W (ix2 (col j) k)))).trans ?_
  simp only [lanePad_low, lanePad_high, absDiff_zero, Finset.sum_const_zero, add_zero]

end Cert.RowDist

end
-- ==== Proof.KIdealBlock.lean ====
/-
  What one grid point computes, at the ideal instance.

  Each of the 64 pieces the body stores is one column of the block's row distances: piece `c` holds, at row `r`, the sum
  over the 384 lanes `k` of `|x0 (r, k) − x1 (c, k)|`, where `x0` is the point's block of padded patches and `x1` the
  padded filter matrix. (The body subtracts the broadcast filter row from the whole patch block, takes absolute values,
  and sums each row over its lanes from zero; at the ideal instance a lane sum is the plain sum, in any order.) The pieces
  tile the block, so the output buffer after the body is the 2048 × 64 matrix of row distances of `x0` and `x1`.
-/
import proofs.«117486_j5617817223690_1_alg».proof.Proof.KIdealRegion
import proofs.«117486_j5617817223690_1_alg».proof.Proof.RowDist
import Idealize.ShloMosaic.Lib.Pipeline.Value
import Idealize.ShloMosaic.Lib.ValueLayout
import Idealize.ShloMosaic.PureOps.Ideal.Laws

set_option maxRecDepth 16384

noncomputable section

namespace Cert.KernelIdeal.Block

open Cert.KernelIdeal Cert.KernelIdeal.Gen Cert.KernelIdeal.Around Cert.KernelIdeal.Columns Cert.KernelIdeal.Region Cert.RowDist
open Idealize.ShloMosaic Idealize.ShloMosaic.TcCoe Idealize.ShloMosaic.Tactic Idealize.ShloMosaic.ValueIdx Idealize.SL.Sem

/-- One output column: the lane sums of the absolute differences of the (re-cast) patch block and one filter row broadcast
    over its 2048 rows, as a 2048 × 1 vector. Every stored payload of the body is this term, whichever way the printed
    text happens to cut it. -/
def column {F : FTy → Type} [FloatOps F] (X : FVec F S2048x384 .f32) (R : Vec F S1x384 .f32) : FVec F S2048x1 .f32 :=
  shapeCast S2048x1 (multiReduction .add [1] S2048
    (absf (subf X (broadcastTo S2048x384 (shapeCast S1x384 R shapeCasts_S1x384_S1x384) broadcasts_S1x384_S2048x384)))
    0x00000000#32 reduces_S2048x384_S2048 (.inl rfl) rfl) shapeCasts_S2048_S2048x1

/-- A column at row `r`: the sum over the lanes of the absolute differences of row `r` of the block and the filter row. -/
theorem column_apply (X : FVec Ideal S2048x384 .f32) (R : Vec Ideal S1x384 .f32) (x : S2048x1.Idx) :
    column X R x = ∑ k : Fin 384, absDiff (X (ix2 (⟨(x 0).val, (x 0).isLt⟩ : Fin 2048) k)) (R (ix2 (0 : Fin 1) k)) := by
  unfold column
  rw [shapeCast_apply _ shapeCasts_S2048_S2048x1 x (ix1 (⟨(x 0).val, (x 0).isLt⟩ : Fin 2048)) (by
    rw [Shape.rowMajor_val_one, Shape.rowMajor_val_two]
    have h1 : (x 1).val < 1 := (x 1).isLt
    show (x 0).val = (x 0).val * 1 + (x 1).val
    omega)]
  refine (Ideal.multiReduction_add_single _ 0x00000000#32 reduces_S2048x384_S2048 (.inl rfl) rfl
    (ix1 (⟨(x 0).val, (x 0).isLt⟩ : Fin 2048))).trans ?_
  refine Finset.sum_congr rfl fun k _ => ?_
  have hidx : reduces_S2048x384_S2048.lift (ix1 (⟨(x 0).val, (x 0).isLt⟩ : Fin 2048)) k
      = ix2 (⟨(x 0).val, (x 0).isLt⟩ : Fin 2048) (⟨k.val, k.isLt⟩ : Fin 384) :=
    funext fun a => Fin.ext (by match a with | ⟨0, _⟩ => rfl | ⟨1, _⟩ => rfl)
  rw [hidx]
  show absDiff (X (ix2 _ _)) (broadcastTo S2048x384 (shapeCast S1x384 R shapeCasts_S1x384_S1x384) broadcasts_S1x384_S2048x384
    (ix2 (⟨(x 0).val, (x 0).isLt⟩ : Fin 2048) (⟨k.val, k.isLt⟩ : Fin 384))) = _
  rw [broadcastTo_1b_ab_apply, shapeCast_self]
  rfl

/-- The row distances of a point's two input blocks. -/
abbrev blockDist (x0 : Vec Ideal S2048x384 .f32) (x1 : Vec Ideal S64x384 .f32) : Vec Ideal S2048x64 .f32 :=
  rowDist (M := 2048) (C := 64) (K := 384) x0 x1

theorem hz : (![0, 0] : Fin 2 → Nat) = fun _ => 0 := funext fun a => by fin_cases a <;> rfl

/-- Filter row `cc` lies inside the 64 × 384 filter buffer. -/
theorem row_inb (cc : Nat) (hcc : cc < 64) : ∀ a, (![cc, 0] : Fin 2 → Nat) a + S1x384.size a ≤ S64x384.size a := fun a => by
  match a with
  | ⟨0, _⟩ => show cc + 1 ≤ 64; omega
  | ⟨1, _⟩ => show 0 + 384 ≤ 384; omega

/-- Output column `cc` lies inside the 2048 × 64 output buffer. -/
theorem col_inb (cc : Nat) (hcc : cc < 64) : ∀ a, (![0, cc] : Fin 2 → Nat) a + S2048x1.size a ≤ S2048x64.size a := fun a => by
  match a with
  | ⟨0, _⟩ => show 0 + 2048 ≤ 2048; omega
  | ⟨1, _⟩ => show cc + 1 ≤ 64; omega

/-- The piece stored into output column `cc`, from buffers holding `x0` and `x1`, agrees with the row distances of `x0` and
    `x1` at every index of its rectangle. -/
theorem piece_ok (cc : Nat) (hcc : cc < 64)
    (arg1 : Memref sig .tc .vmem S2048x384 .f32) (harg1 : arg1.IsWhole)
    (arg2 : Memref sig .tc .vmem S64x384 .f32) (harg2 : arg2.IsWhole)
    (x0 : Vec Ideal S2048x384 .f32) (x1 : Vec Ideal S64x384 .f32)
    (x : S2048x1.Idx) :
    column (k0_pay1 (View.readAt (Elt Ideal) arg1.view (Rect.unit (s := S2048x384) ![0, 0] S2048x384.size inb_S2048x384_S2048x384_0_0).toLoadRect (harg1.unread x0)))
        (View.readAt (Elt Ideal) arg2.view (Rect.unit (s := S64x384) ![cc, 0] S1x384.size (row_inb cc hcc)).toLoadRect (harg2.unread x1)) x
      = blockDist x0 x1 ((Rect.unit (s := S2048x64) ![0, cc] S2048x1.size (col_inb cc hcc)).emb x) := by
  rw [column_apply]
  show _ = rowDist (M := 2048) (C := 64) (K := 384) x0 x1 _
  unfold rowDist
  refine Finset.sum_congr rfl fun k _ => ?_
  simp only [View.readAt_eq_ld, harg1.read_unread, harg2.read_unread]
  unfold k0_pay1
  rw [shapeCast_self, View.ld_unit_zero (S := S2048x384) hz]
  have h1 : (x 1).val < 1 := (x 1).isLt
  -- the row of the embedded index is the piece's own row; its column is `cc`
  have ea : (ix2 (⟨(x 0).val, (x 0).isLt⟩ : Fin 2048) k : S2048x384.Idx)
      = ix2 (row ((Rect.unit (s := S2048x64) ![0, cc] S2048x1.size (col_inb cc hcc)).emb x)) k :=
    funext fun a => Fin.ext (by
      match a with
      | ⟨0, _⟩ => show (x 0).val = 0 + 1 * (x 0).val; omega
      | ⟨1, _⟩ => rfl)
  have eb : (Rect.unit (s := S64x384) ![cc, 0] S1x384.size (row_inb cc hcc)).idx (ix2 (0 : Fin 1) k)
      = ix2 (col ((Rect.unit (s := S2048x64) ![0, cc] S2048x1.size (col_inb cc hcc)).emb x)) k :=
    funext fun a => Fin.ext (by
      match a with
      | ⟨0, _⟩ => show cc + 1 * 0 = cc + 1 * (x 1).val; omega
      | ⟨1, _⟩ => show 0 + 1 * k.val = k.val; omega)
  show absDiff (x0 _) (x1 ((Rect.unit (s := S64x384) ![cc, 0] S1x384.size (row_inb cc hcc)).idx (ix2 (0 : Fin 1) k))) = _
  rw [ea, eb]

/-- Every piece the run finds agrees with the row distances of the two input blocks on its rectangle. -/
theorem pieces_ok (c : Dev nD) (i : grid0.Coords)
    (arg1 : Memref sig .tc .vmem S2048x384 .f32) (harg1 : arg1.IsWhole)
    (arg2 : Memref sig .tc .vmem S64x384 .f32) (harg2 : arg2.IsWhole)
    (arg3 : Memref sig .tc .vmem S2048x64 .f32) (harg3 : arg3.IsWhole)
    (x0 : Vec Ideal S2048x384 .f32) (x1 : Vec Ideal S64x384 .f32) :
    ∀ p ∈ (columnsRun (F := Ideal) c i arg1 harg1 arg2 harg2 arg3 harg3 x0 x1).1,
      ∀ x : p.1.shape.Idx, p.2 x = blockDist x0 x1 (p.1.emb x) := by
  unfold columnsRun
  dsimp only
  try sl_unfold_words
  intro p hp
  simp only [List.mem_cons, List.mem_nil_iff, or_false] at hp
  repeat' (rcases hp with rfl | hp)
  all_goals (try subst hp)
  all_goals (intro x; exact piece_ok _ (by decide) arg1 harg1 arg2 harg2 x0 x1 x)

/-- The output buffer after the body at point `t`: the row distances of the point's two input blocks. -/
theorem colsAt_eq (m : (ℓ : Loc nD τ sig) → Buf (Elt Ideal) ℓ) (c : Dev nD) (t : Fin cfg0.N) :
    colsAt m c t = blockDist (iblk m c 0 t) (iblk m c 1 t) := by
  unfold colsAt
  funext y
  exact View.canon_apply_of_pieces _ _ (pieces_ok c _ _ _ _ _ _ _ _ _) y (columns_cover c _ _ _ _ _ _ _ _ _ y)

end Cert.KernelIdeal.Block

end
-- ==== Proof.LibNary9.lean ====
/-
  A concatenate of NINE operands prints as one nine-operand host operation, `nary ![x₀, …, x₈] y f`. The general result
  lemma for such an operation hands the body the family `fun k => V ↑(![x₀, …, x₈] k)`, in which the reference under the
  binder is not a literal, so nothing more can be rewritten about the operands' contents. Stated here: the result with each
  operand's contents read at its OWN literal reference (a nine-fold `Fin.cons`), in the plain form and in the form a
  simplifier pass can key on, and the same for a body that takes its nine operands one by one.
-/
import Idealize.ShloMosaic.Lib.StableHlo.Run

noncomputable section

namespace Idealize.ShloMosaic.StableHlo

variable {τ : Topo} {sig : RefSig} {Val : EltTy → Type}
variable {x0 x1 x2 x3 x4 x5 x6 x7 x8 y : Ref sig .tc}

/-- What a nine-operand operation leaves at its result buffer: its body applied to the nine operand buffers' contents,
    each read at its own reference. -/
theorem nary9_result
    (f : ((k : Fin 9) → ((![x0, x1, x2, x3, x4, x5, x6, x7, x8] : Fin 9 → Ref sig .tc) k).ty.Contents Val) → y.ty.Contents Val)
    (hxs hy) (V : Valuation τ sig Val) :
    (nary (τ := τ) ![x0, x1, x2, x3, x4, x5, x6, x7, x8] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
          (Fin.cons (V (Proc.devRef .tc x6)) (Fin.cons (V (Proc.devRef .tc x7)) (Fin.cons (V (Proc.devRef .tc x8))
          (fun i => i.elim0)))))))))) := by
  rw [nary_result]; congr 1; funext k; fin_cases k <;> rfl

/-- The same, with the result reference un-indexed so that a simplifier pass finds it from the operation alone. -/
theorem nary9_result'
    (f : ((k : Fin 9) → ((![x0, x1, x2, x3, x4, x5, x6, x7, x8] : Fin 9 → Ref sig .tc) k).ty.Contents Val) → y.ty.Contents Val)
    (hxs hy) (V : Valuation τ sig Val) :
    (nary (τ := τ) ![x0, x1, x2, x3, x4, x5, x6, x7, x8] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
          (Fin.cons (V (Proc.devRef .tc x6)) (Fin.cons (V (Proc.devRef .tc x7)) (Fin.cons (V (Proc.devRef .tc x8))
          (fun i => i.elim0)))))))))) :=
  nary9_result f hxs hy V

end Idealize.ShloMosaic.StableHlo

end
-- ==== Proof.KIdealEntry.lean ====
/-
  What the region's two input arrays hold when the region is entered.

  The host lines before the region flatten the patches [8, 32, 32, 288] to a matrix of 8192 rows and the filters
  [64, 3, 3, 32] to a matrix of 64 rows, both of 288 lanes, and pad each with 96 lanes of the converted integer zero. At the
  ideal instance the converted zero is the real number 0, so each padded array is `lanePad` of its flattened matrix: the
  matrix on lanes below 288, zero above.
-/
import proofs.«117486_j5617817223690_1_alg».proof.Proof.KIdealAround
import proofs.«117486_j5617817223690_1_alg».proof.Proof.LibNary9
import proofs.«117486_j5617817223690_1_alg».proof.Proof.RowDist
import Idealize.ShloMosaic.Lib.KernelVsHost
import Idealize.ShloMosaic.PureOps.Ideal.Laws

set_option maxRecDepth 16384

noncomputable section

namespace Cert.KernelIdeal.Entry

open Cert.KernelIdeal Cert.KernelIdeal.Gen Cert.KernelIdeal.Around Cert.RowDist
open Idealize.ShloMosaic Idealize.ShloMosaic.TcCoe Idealize.ShloMosaic.ValueIdx Idealize.SL.Sem

/-- One simplifier pass over a literal list of host operations: each operation's result at its own buffer is its function
    of its operands' contents, and at any other buffer what was there (the nine-operand stack read operand by operand). -/
macro "entry_results" : tactic =>
  `(tactic| (simp (disch := decide) only [StableHlo.after_cons, StableHlo.after_nil,
      StableHlo.nullary_result', StableHlo.unary_result', StableHlo.binary_result', StableHlo.reshape_result', StableHlo.nary9_result',
      StableHlo.nullary_result_ne', StableHlo.unary_result_ne', StableHlo.binary_result_ne', StableHlo.reshape_result_ne', StableHlo.nary_result_ne']))

section AnyFloats

variable {F : FTy → Type} [FloatOps F]
variable (m : (ℓ : Loc nD τ sig) → Buf (Elt F) ℓ)

set_option maxHeartbeats 2000000 in
/-- The region's second operand: the flattened filters padded with 96 lanes of the converted zero. -/
theorem entry_filters (c : Dev nD) : (V m c main_v24 : S64x384.Idx → Elt F .f32)
    = pad S64x384 ![0, 0] ![0, 96] ![0, 0]
        (shapeCast S64x288 (m ((c : Thread nD τ).loc main_arg1) : S64x3x3x32.Idx → Elt F .f32) shapeCasts_S64x3x3x32_S64x288)
        (sitofp .f32 (constantI S_ 32 0#32)) pads_S64x288_S64x384_000_0960 h_S_ := by
  dsimp only [V, V0]
  simp only [hostOps0, hostOps0_1, hostOps0_2, hostOps0_3, hostOps0_4, hostOps0_5, List.flatten_cons, List.flatten_nil,
    List.append_nil, List.cons_append, List.nil_append]
  entry_results
  simp only [StableHlo.TRef.ofBuf, StableHlo.TRef.toBuf, cast_eq]
  rfl

set_option maxHeartbeats 2000000 in
/-- The region's first operand: the patches, flattened to 8192 rows, padded with 96 lanes of the converted zero. -/
theorem entry_patches (c : Dev nD) : (V m c main_v23 : S8192x384.Idx → Elt F .f32)
    = pad S8192x384 ![0, 0] ![0, 96] ![0, 0]
        (shapeCast S8192x288 (V m c main_v20 : S8x32x32x288.Idx → Elt F .f32) shapeCasts_S8x32x32x288_S8192x288)
        (sitofp .f32 (constantI S_ 32 0#32)) pads_S8192x288_S8192x384_000_0960 h_S_ := by
  dsimp only [V, V0]
  simp only [hostOps0, hostOps0_1, hostOps0_2, hostOps0_3, hostOps0_4, hostOps0_5, List.flatten_cons, List.flatten_nil,
    List.append_nil, List.cons_append, List.nil_append]
  entry_results
  simp only [StableHlo.TRef.ofBuf, StableHlo.TRef.toBuf, cast_eq]
  rfl

end AnyFloats

/-! ## At the ideal instance -/

/-- The converted integer zero is the real number zero. -/
theorem zero_word : (sitofp (F := Ideal) .f32 (constantI S_ 32 0#32)) (Shape.Idx.first h_S_) = (0 : EReal) := by
  show ((((0#32 : BitVec 32).toInt : ℤ) : ℝ) : EReal) = 0
  simp

/-- A matrix of 288 lanes padded on the right with 96 lanes of a value that is zero is its `lanePad`. -/
theorem pad_eq_lanePad {M : Nat} (Y : (⟨2, ![M, 288]⟩ : Shape).Idx → EReal) (z : S_.Idx → EReal)
    (h : (⟨2, ![M, 288]⟩ : Shape).Pads ![0, 0] ![0, 96] ![0, 0] ⟨2, ![M, 384]⟩) (hu : 0 < S_.numel)
    (hz : z (Shape.Idx.first hu) = 0) :
    pad ⟨2, ![M, 384]⟩ ![0, 0] ![0, 96] ![0, 0] Y z h hu = lanePad Y := by
  funext j
  unfold lanePad
  by_cases hj : (col j).val < 288
  · rw [dif_pos hj]
    refine pad_apply_of_inside _ _ _ Y z h hu j (ix2 (row j) ⟨(col j).val, hj⟩) (fun a => ?_)
    match a with
    | ⟨0, _⟩ => show (j 0).val = 0 + (j 0).val * (0 + 1); omega
    | ⟨1, _⟩ => show (j 1).val = 0 + (j 1).val * (0 + 1); omega
  · rw [dif_neg hj, pad_apply_of_not_inside _ _ _ Y z h hu j (1 : Fin 2) (fun hin => hj (by
      have h3 := hin.2.2
      have : ((j 1).val - 0) / (0 + 1) < 288 := h3
      show (j 1).val < 288
      omega)), hz]

end Cert.KernelIdeal.Entry

end
-- ==== Proof.KIdealWhole.lean ====
/-
  The idealized kernel's result as one function of its inputs.

  Point `t` of the grid writes back block `t` — rows 2048·t … 2048·t + 2047, all 64 columns — of the 8192 × 64 output array,
  and what it writes is the row distances of its patch block (the same rows of the padded patch matrix) and the whole
  padded filter matrix: block `t` of the row distances of the two padded matrices. The four blocks cover the array, so the
  array ends holding those row distances; the padding lanes contribute nothing (`rowDist_lanePad`); and the closing host
  line reshapes the array to [8, 32, 32, 64].
-/
import proofs.«117486_j5617817223690_1_alg».proof.Proof.KIdealBlock
import proofs.«117486_j5617817223690_1_alg».proof.Proof.KIdealEntry

set_option maxRecDepth 16384

noncomputable section

namespace Cert.KernelIdeal.Whole

open Cert.KernelIdeal Cert.KernelIdeal.Gen Cert.KernelIdeal.Around Cert.KernelIdeal.Region Cert.KernelIdeal.Block
open Cert.KernelIdeal.Entry Cert.RowDist
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The row distances of the two padded matrices as the region finds them. -/
abbrev arrDist (c : Dev nD) : Vec Ideal S8192x64 .f32 :=
  rowDist (M := 8192) (C := 64) (K := 384) (V m c main_v23) (V m c main_v24)

/-- The printed index maps over the grid: the patch window moves with the output window along the rows, every other block
    index is zero, and the output's row-block index stays below four. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 3 :=
  (by decide +kernel : ∀ t : Fin grid0.N, _)

/-- Every row block is some point's. -/
theorem idx_onto : ∀ q : Fin 4, ∃ t : Fin cfg0.N, win0_2.index t = ![q.val, 0] :=
  (by decide +kernel : ∀ q : Fin 4, ∃ t : Fin grid0.N, win0_2.index t = ![q.val, 0])

/-- What point `t` writes back is block `t` of the row distances of the two padded matrices. -/
theorem flushed_eq (c : Dev nD) (t : Fin cfg0.N) :
    (dats m 0 c).flushed 2 t = ((cfg0.win 2).blk t).view.read (Elt Ideal) (arrDist m c) := by
  show (cfg0.win 2).cut (grid0.coords t) ((dats m 0 c).after 2 t) = _
  rw [after0_2, colsAt_eq]
  obtain ⟨e0, e1, e2, e3, e4, e5⟩ := idx_facts t
  funext j
  show ∑ k : Fin 384, absDiff (V m c main_v23 (((cfg0.win 0).blk t).view.emb (ix2 (row j) k)))
        (V m c main_v24 (((cfg0.win 1).blk t).view.emb (ix2 (col j) k)))
      = ∑ k : Fin 384, absDiff (V m c main_v23 (ix2 (row (((cfg0.win 2).blk t).view.emb j)) k))
        (V m c main_v24 (ix2 (col (((cfg0.win 2).blk t).view.emb j)) k))
  refine Finset.sum_congr rfl fun k _ => ?_
  have hj0 : (j 0).val < 2048 := (j 0).isLt
  have hj1 : (j 1).val < 64 := (j 1).isLt
  have h0 : ((cfg0.win 0).blk t).view.emb (ix2 (row j) k) = ix2 (row (((cfg0.win 2).blk t).view.emb j)) k := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 384 + 1 * k.val = k.val; omega
  have h1 : ((cfg0.win 1).blk t).view.emb (ix2 (col j) k) = ix2 (col (((cfg0.win 2).blk t).view.emb j)) k := by
    funext a; apply Fin.ext
    match a with
    | ⟨0, _⟩ => show win0_1.index t (0 : Fin 2) * 64 + 1 * (j 1).val = win0_2.index t (1 : Fin 2) * 64 + 1 * (j 1).val; omega
    | ⟨1, _⟩ => show win0_1.index t (1 : Fin 2) * 384 + 1 * k.val = k.val; omega
  rw [h0, h1]

/-- An index of the output array is in point `t`'s block iff each coordinate is in the block's range on its axis. -/
theorem mem_blk (t : Fin cfg0.N) (i : S8192x64.Idx) :
    i ∈ ((cfg0.win 2).blk t).view.set ↔ ∀ a : Fin 2, win0_2.index t a * S2048x64.size a ≤ (i a).val
      ∧ (i a).val < win0_2.index t a * S2048x64.size a + S2048x64.size a := by
  show i ∈ ((View.whole main_v25).slice (win0_2.rect t)).set ↔ _
  rw [View.set_slice_whole, Rect.mem_set_unit]
  exact Iff.rfl

/-- Every index of the output array lies in the block of the point whose row block holds its row. -/
theorem cover (i : S8192x64.Idx) :
    ∃ t : Fin cfg0.N, (cfg0.win 2).flush t = true ∧ i ∈ ((cfg0.win 2).blk t).view.set := by
  have hi0 : (i 0).val < 8192 := (i 0).isLt
  have hi1 : (i 1).val < 64 := (i 1).isLt
  obtain ⟨t, ht⟩ := idx_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 64 ≤ (i 1).val ∧ (i 1).val < win0_2.index t (1 : Fin 2) * 64 + 64; omega

/-- The output array after the run: the row distances of the two padded matrices. -/
theorem final (c : Dev nD) : (dats m 0 c).arrAt 2 cfg0.N = arrDist m c :=
  (dats m 0 c).arrAt_eq_of_cover 2 (arrDist m c) (fun t _ => flushed_eq m c t) cover

/-- The padding lanes drop out: the row distances of the flattened patches and the flattened filters. -/
theorem arrDist_eq (c : Dev nD) :
    arrDist m c = rowDist (M := 8192) (C := 64) (K := 288)
      (shapeCast S8192x288 (V m c main_v20 : S8x32x32x288.Idx → Elt Ideal .f32) shapeCasts_S8x32x32x288_S8192x288)
      (shapeCast S64x288 (m ((c : Thread nD τ).loc main_arg1) : S64x3x3x32.Idx → Elt Ideal .f32) shapeCasts_S64x3x3x32_S64x288) := by
  unfold arrDist
  rw [show (V m c main_v23 : S8192x384.Idx → Elt Ideal .f32) = _ from entry_patches m c,
    show (V m c main_v24 : S64x384.Idx → Elt Ideal .f32) = _ from entry_filters m c,
    pad_eq_lanePad _ _ pads_S8192x288_S8192x384_000_0960 h_S_ zero_word,
    pad_eq_lanePad _ _ pads_S64x288_S64x384_000_0960 h_S_ zero_word,
    rowDist_lanePad]

/-- The closing host line: the result buffer ends at the reshape of the region's output array. -/
theorem tail_eq (c : Dev nD) :
    Pipeline.afterTail₀ cfgs (dats m) 0 (V0 m) [hostOps1] c main_v26
      = shapeCast S8x32x32x64 ((dats m 0 c).arrAt 2 cfg0.N) shapeCasts_S8192x64_S8x32x32x64 := by
  unfold Pipeline.afterTail₀
  show StableHlo.after hostOps1 _ (Proc.devRef .tc main_v26) = _
  after_results
  rw [Pipeline.withArrays_arr spec0 launch0.win.arr_inj c _ _ 2]
  rfl

/-- The idealized kernel's run, read: the result is the row distances of the flattened patches and the flattened filters,
    reshaped to [8, 32, 32, 64]; both arguments end as launched. -/
theorem run : θ_run defs (onTc (τ := τ) (main (F := Ideal))) ⟨m, fun _ => 0, ρ⟩ (fun r => ∀ c : Dev nD,
      r.2.mem ((c.tc : Thread nD τ).loc main_v26)
        = shapeCast S8x32x32x64 (rowDist (M := 8192) (C := 64) (K := 288)
            (shapeCast S8192x288 (V m c main_v20 : S8x32x32x288.Idx → Elt Ideal .f32) shapeCasts_S8x32x32x288_S8192x288)
            (shapeCast S64x288 (m ((c : Thread nD τ).loc main_arg1) : S64x3x3x32.Idx → Elt Ideal .f32) shapeCasts_S64x3x3x32_S64x288))
            shapeCasts_S8192x64_S8x32x32x64
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (by rw [tail_eq, final, arrDist_eq]), (h c).2⟩) (Region.result m ρ)

end Cert.KernelIdeal.Whole

end
-- ==== Proof.RefSide.lean ====
/-
  The reference's value.

  The reference flattens the patches to [8192, 1, 288] and the filters to [1, 64, 288], broadcasts both to
  [8192, 64, 288], subtracts, takes absolute values and sums over the last axis from zero. Read at an index `(r, c)` this is
  zero plus the sum over the 288 lanes `k` of `|patches(r, k) − filters(c, k)|`, the patches and the filters each read at
  the entry with the same row-major position: the row distance of the two flattened matrices. The result is its reshape
  to [8, 32, 32, 64].
-/
import proofs.«117486_j5617817223690_1_alg».proof.Proof.Gen.ReferenceIdeal.Run
import proofs.«117486_j5617817223690_1_alg».proof.Proof.Gen.ReferenceIdeal.Read
import proofs.«117486_j5617817223690_1_alg».proof.Proof.RowDist
import Idealize.ShloMosaic.Lib.Pipeline.Value
import Idealize.ShloMosaic.PureOps.Ideal.Laws

noncomputable section

namespace Cert.ReferenceIdeal.Dist

open Cert.ReferenceIdeal Cert.ReferenceIdeal.Gen Cert.ReferenceIdeal.Read Cert.RowDist
open Idealize.ShloMosaic Idealize.ShloMosaic.TcCoe Idealize.ShloMosaic.ValueIdx Idealize.SL.Sem

/-- The patches as a matrix of 8192 rows and 288 lanes. -/
abbrev S8192x288 : Shape := ⟨2, ![8192, 288]⟩

theorem casts_patches : S8x32x32x288.ShapeCasts S8192x288 := by decide

/-- The reference's [8192, 64] stage is the row distance of the flattened patches and the flattened filters. -/
theorem stage_eq (X : (⟨S8x32x32x32, .f32⟩ : BufTy).Contents (Elt Ideal)) (W : (⟨S64x3x3x32, .f32⟩ : BufTy).Contents (Elt Ideal)) :
    val_main_v28 (F := Ideal) X W
      = rowDist (shapeCast S8192x288 (val_main_v20 (F := Ideal) X) casts_patches) (val_main_v21 (F := Ideal) W) := by
  funext i
  rw [val_main_v28_apply]
  unfold rowDist
  rw [show val_main_cst (F := Ideal) (Shape.Idx.first h_S_) = 0 from Ideal.ofBits_zero_f32, zero_add]
  refine Finset.sum_congr rfl fun k _ => ?_
  rw [val_main_v27_apply, val_main_v26_apply, val_main_v24_apply, val_main_v22_apply, val_main_v25_apply, val_main_v23_apply]
  -- the flattened patches at (row, lane) are the patches at the entry with the same row-major position
  have e1 : shapeCast S8192x288 (val_main_v20 (F := Ideal) X) casts_patches (ix2 (row i) k)
      = val_main_v20 (F := Ideal) X (idx_main_v22 (idx_main_v24 (idx_main_v28 i k))) := by
    generalize val_main_v20 (F := Ideal) X = y
    refine shapeCast_apply y casts_patches (ix2 (row i) k) (idx_main_v22 (idx_main_v24 (idx_main_v28 i k))) ?_
    rw [Shape.rowMajor_val_four, Shape.rowMajor_val_two]
    have h0 : (i 0).val < 8192 := (i 0).isLt
    have hk : k.val < 288 := k.isLt
    show (((((i 0).val * 1 + 0) * 288 + k.val) / 294912 * 32 + (((i 0).val * 1 + 0) * 288 + k.val) / 9216 % 32) * 32 + (((i 0).val * 1 + 0) * 288 + k.val) / 288 % 32) * 288 + (((i 0).val * 1 + 0) * 288 + k.val) % 288
      = (i 0).val * 288 + k.val
    omega
  -- the filters are read at (column, lane)
  have e2 : idx_main_v23 (idx_main_v25 (idx_main_v28 i k)) = ix2 (col i) k :=
    funext fun a => Fin.ext (by match a with | ⟨0, _⟩ => rfl | ⟨1, _⟩ => rfl)
  rw [e1, e2]
  rfl

/-- The reference's result: the row distances, reshaped to [8, 32, 32, 64]. -/
theorem result_eq (m : (ℓ : Loc nD τ sig) → Buf (Elt Ideal) ℓ) (c : Dev nD) :
    Cert.ReferenceIdeal.Value.res_main_v29 m c
      = shapeCast S8x32x32x64
          (rowDist (shapeCast S8192x288 (val_main_v20 (F := Ideal) (m ((c.tc : Thread nD τ).loc main_arg0))) casts_patches)
            (val_main_v21 (F := Ideal) (m ((c.tc : Thread nD τ).loc main_arg1))))
          shapeCasts_S8192x64_S8x32x32x64 := by
  rw [val_main_v29_eq]
  unfold val_main_v29
  rw [stage_eq]

end Cert.ReferenceIdeal.Dist

end
-- ==== Proof.Join.lean ====
/-
  The two idealized programs compute one function.

  Both programs build the patches from the image by the same host lines (zero-pad by one pixel, nine shifted views,
  stack, flatten to 288 values per pixel), so the kernel's patches array, as the region finds it, is the reference's
  patches stage of the same image; both flatten the filters the same way. The kernel's result is the row distances of the
  flattened patches and flattened filters reshaped to [8, 32, 32, 64] (the 96 zero lanes it adds to both change nothing),
  and so is the reference's.
-/
import proofs.«117486_j5617817223690_1_alg».proof.Defs
import proofs.«117486_j5617817223690_1_alg».proof.Proof.Gen.Pre_finite_inputs
import proofs.«117486_j5617817223690_1_alg».proof.Proof.KIdealWhole
import proofs.«117486_j5617817223690_1_alg».proof.Proof.RefSide

set_option maxRecDepth 16384

noncomputable section

namespace Cert.Join

open Idealize.ShloMosaic Idealize.ShloMosaic.TcCoe Idealize.SL.Sem Cert.RowDist

/-- The common result: the row distances of the flattened patches of image `X` and the flattened filters `W`, reshaped
    to [8, 32, 32, 64]. -/
def result (X : (⟨Cert.ReferenceIdeal.S8x32x32x32, .f32⟩ : BufTy).Contents (Elt Ideal))
    (W : (⟨Cert.ReferenceIdeal.S64x3x3x32, .f32⟩ : BufTy).Contents (Elt Ideal)) :
    Cert.ReferenceIdeal.S8x32x32x64.Idx → EReal :=
  shapeCast Cert.ReferenceIdeal.S8x32x32x64
    (rowDist (shapeCast Cert.ReferenceIdeal.Dist.S8192x288 (Cert.ReferenceIdeal.Read.val_main_v20 (F := Ideal) X)
        Cert.ReferenceIdeal.Dist.casts_patches)
      (Cert.ReferenceIdeal.Read.val_main_v21 (F := Ideal) W))
    Cert.ReferenceIdeal.Gen.shapeCasts_S8192x64_S8x32x32x64

section Patches

open Cert.KernelIdeal Cert.KernelIdeal.Gen Cert.KernelIdeal.Around Cert.KernelIdeal.Entry

variable {F : FTy → Type} [FloatOps F]

set_option maxHeartbeats 2000000 in
/-- The kernel program's patches array, when the region is entered, is the reference's patches stage of the same image:
    the same host lines in the same order. -/
theorem patches_same (m : (ℓ : Loc nD τ sig) → Buf (Elt F) ℓ) (c : Dev nD) :
    (V m c main_v20 : S8x32x32x288.Idx → Elt F .f32)
      = Cert.ReferenceIdeal.Read.val_main_v20 (F := F) (m ((c : Thread nD τ).loc main_arg0)) := by
  dsimp only [V, V0]
  simp only [hostOps0, hostOps0_1, hostOps0_2, hostOps0_3, hostOps0_4, hostOps0_5, List.flatten_cons, List.flatten_nil,
    List.append_nil, List.cons_append, List.nil_append]
  entry_results
  try simp only [StableHlo.TRef.ofBuf, StableHlo.TRef.toBuf, cast_eq]
  rfl

end Patches

/-- The kernel's result, in the common form. -/
theorem kernel_result (m : (ℓ : Loc Cert.KernelIdeal.nD Cert.KernelIdeal.τ Cert.KernelIdeal.sig) → Buf (Elt Ideal) ℓ) (c : Dev Cert.KernelIdeal.nD) :
    shapeCast Cert.KernelIdeal.S8x32x32x64 (rowDist (M := 8192) (C := 64) (K := 288)
        (shapeCast Cert.KernelIdeal.S8192x288
          (Cert.KernelIdeal.Around.V m c Cert.KernelIdeal.main_v20 : Cert.KernelIdeal.S8x32x32x288.Idx → Elt Ideal .f32)
          Cert.KernelIdeal.Gen.shapeCasts_S8x32x32x288_S8192x288)
        (shapeCast Cert.KernelIdeal.S64x288
          (m ((c : Thread Cert.KernelIdeal.nD Cert.KernelIdeal.τ).loc Cert.KernelIdeal.main_arg1) : Cert.KernelIdeal.S64x3x3x32.Idx → Elt Ideal .f32)
          Cert.KernelIdeal.Gen.shapeCasts_S64x3x3x32_S64x288))
        Cert.KernelIdeal.Gen.shapeCasts_S8192x64_S8x32x32x64
      = result (m ((c : Thread Cert.KernelIdeal.nD Cert.KernelIdeal.τ).loc Cert.KernelIdeal.main_arg0))
          (m ((c : Thread Cert.KernelIdeal.nD Cert.KernelIdeal.τ).loc Cert.KernelIdeal.main_arg1)) := by
  rw [patches_same]
  rfl

/-- The two idealized programs, run from memories that agree on the image and the filters, end with equal results. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (kernel_result m c), (h c).2⟩)
      (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Dist.result_eq, (hagree c).1, (hagree c).2]
    rfl

end Cert.Join

end
-- ==== Proof.lean ====
/-
  The certificate of the L1-distance sliding-window kernel against its jnp reference.

  The kernel flattens 3×3 patches of the zero-padded image to rows of 288 values, pads rows and filters with 96 zero lanes,
  and on a grid of four row blocks computes, for every patch row and every filter, the sum over the 384 lanes of the
  absolute differences; the reference computes the same sums over the 288 lanes by broadcasting. At the ideal instance the
  zero lanes contribute `|0 − 0| = 0` each, so the two results agree entry by entry (`Join.algebraic`). Each program runs
  to the end without fault and leaves the image and the filters as launched: the kernel program by the frame run of its one
  region between its host lines (`Region.frame`, at the word-level and at the ideal instance), the reference by its run as
  a list of host operations. The ideal pass rewrote nothing, so there is nothing to preserve.
-/
import proofs.«117486_j5617817223690_1_alg».proof.Defs
import proofs.«117486_j5617817223690_1_alg».proof.Proof.Gen.Kernel
import proofs.«117486_j5617817223690_1_alg».proof.Proof.Gen.KernelIdeal
import proofs.«117486_j5617817223690_1_alg».proof.Proof.Gen.ReferenceIdeal
import proofs.«117486_j5617817223690_1_alg».proof.Proof.Gen.Pre_finite_inputs
import proofs.«117486_j5617817223690_1_alg».proof.Proof.KBitsRegion
import proofs.«117486_j5617817223690_1_alg».proof.Proof.KIdealRegion
import proofs.«117486_j5617817223690_1_alg».proof.Proof.Join
import Idealize.ShloMosaic.Adequacy
import Idealize.ShloMosaic.Init

noncomputable section

namespace Cert.Proof

open Idealize.ShloMosaic Idealize.SL.Sem

theorem frame_kernel : Cert.frame_Kernel := fun m ρ _ => Cert.Kernel.Region.frame m ρ

theorem frame_kernel_ideal : Cert.frame_KernelIdeal := fun m ρ _ => Cert.KernelIdeal.Region.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, Cert.Join.algebraic⟩

end Cert.Proof

end
